-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100 : Shape := ⟨2, ![1, 100]⟩
abbrev S1x1 : Shape := ⟨2, ![1, 1]⟩
abbrev S50000 : Shape := ⟨1, ![50000]⟩
abbrev S100000 : Shape := ⟨1, ![100000]⟩
abbrev S100000x1 : Shape := ⟨2, ![100000, 1]⟩
abbrev S100000x128 : Shape := ⟨2, ![100000, 128]⟩
abbrev S100000x10 : Shape := ⟨2, ![100000, 10]⟩
abbrev S128x128 : Shape := ⟨2, ![128, 128]⟩
abbrev S128x129 : Shape := ⟨2, ![128, 129]⟩
abbrev S_ : Shape := ⟨0, ![]⟩

class Facts : Prop where
  bcast_S_S1x1 : S_.BroadcastsInDim S1x1 (![] : Fin 0 → Fin S1x1.rank)
  reducesTo_S1x1_S_d0_1 : S1x1.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128x129 : S_.BroadcastsInDim S128x129 (![] : Fin 0 → Fin S128x129.rank)
  reducesTo_S128x129_S_d0_1 : S128x129.ReducesTo [0, 1] S_
  bcast_S_S100000 : S_.BroadcastsInDim S100000 (![] : Fin 0 → Fin S100000.rank)
  reducesTo_S100000_S_d0 : S100000.ReducesTo [0] S_
  bcast_S_S100000x10 : S_.BroadcastsInDim S100000x10 (![] : Fin 0 → Fin S100000x10.rank)
  reducesTo_S100000x10_S_d0_1 : S100000x10.ReducesTo [0, 1] S_
  bcast_S_S50000 : S_.BroadcastsInDim S50000 (![] : Fin 0 → Fin S50000.rank)
  reducesTo_S50000_S_d0 : S50000.ReducesTo [0] S_
  bcast_S_S1x100 : S_.BroadcastsInDim S1x100 (![] : Fin 0 → Fin S1x100.rank)
  reducesTo_S1x100_S_d0_1 : S1x100.ReducesTo [0, 1] S_

variable [Facts]

def fn_part3 {F : FTy → Type} [FloatOps F] (main_arg0 : IVec S1x100 32) (main_arg2 : IVec S50000 32) (main_v45 : IVec S_ 1) (main_v50 : IVec S100000x10 1) : IVec S_ 1 :=
  let main_c_19 : IVec S_ 1 := constantI S_ 1 1#1
  let main_v51 : IVec S_ 1 := (fun x v => Host.reduce IntOp.andi x v reducesTo_S100000x10_S_d0_1 h_S_) main_v50 main_c_19
  let main_v52 : IVec S_ 1 := andi main_v45 main_v51
  let main_c_20 : IVec S_ 32 := constantI S_ 32 0#32
  let main_v53 : IVec S50000 32 := broadcastInDim S50000 ![] bcast_S_S50000 main_c_20
  let main_v54 : IVec S50000 1 := cmpi .sge main_arg2 main_v53
  let main_c_21 : IVec S_ 32 := constantI S_ 32 100000#32
  let main_v55 : IVec S50000 32 := broadcastInDim S50000 ![] bcast_S_S50000 main_c_21
  let main_v56 : IVec S50000 1 := cmpi .slt main_arg2 main_v55
  let main_v57 : IVec S50000 1 := andi main_v54 main_v56
  let main_c_22 : IVec S_ 1 := constantI S_ 1 1#1
  let main_v58 : IVec S_ 1 := (fun x v => Host.reduce IntOp.andi x v reducesTo_S50000_S_d0 h_S_) main_v57 main_c_22
  let main_v59 : IVec S_ 1 := andi main_v52 main_v58
  let main_c_23 : IVec S_ 32 := constantI S_ 32 0#32
  let main_v60 : IVec S1x100 32 := broadcastInDim S1x100 ![] bcast_S_S1x100 main_c_23
  let main_v61 : IVec S1x100 1 := cmpi .sge main_arg0 main_v60
  let main_c_24 : IVec S_ 32 := constantI S_ 32 100000#32
  let main_v62 : IVec S1x100 32 := broadcastInDim S1x100 ![] bcast_S_S1x100 main_c_24
  let main_v63 : IVec S1x100 1 := cmpi .sle main_arg0 main_v62
  let main_v64 : IVec S1x100 1 := andi main_v61 main_v63
  let main_c_25 : IVec S_ 1 := constantI S_ 1 1#1
  let main_v65 : IVec S_ 1 := (fun x v => Host.reduce IntOp.andi x v reducesTo_S1x100_S_d0_1 h_S_) main_v64 main_c_25
  let main_v66 : IVec S_ 1 := andi main_v59 main_v65
  main_v66

def fn_part2 {F : FTy → Type} [FloatOps F] (main_arg0 : IVec S1x100 32) (main_arg2 : IVec S50000 32) (main_arg3 : IVec S100000 32) (main_arg6 : IVec S100000x10 32) (main_arg11 : FVec F S128x129 .f32) (main_v33 : IVec S_ 1) : IVec S_ 1 :=
  let main_v34 : FVec F S128x129 .f32 := Host.absf main_arg11
  let main_cst_12 : FVec F S_ .f32 := constant S_ .f32 0x7F800000#32
  let main_v35 : FVec F S128x129 .f32 := broadcastInDim S128x129 ![] bcast_S_S128x129 main_cst_12
  let main_v36 : IVec S128x129 1 := cmpf .olt main_v34 main_v35
  let main_c_13 : IVec S_ 1 := constantI S_ 1 1#1
  let main_v37 : IVec S_ 1 := (fun x v => Host.reduce IntOp.andi x v reducesTo_S128x129_S_d0_1 h_S_) main_v36 main_c_13
  let main_v38 : IVec S_ 1 := andi main_v33 main_v37
  let main_c_14 : IVec S_ 32 := constantI S_ 32 0#32
  let main_v39 : IVec S100000 32 := broadcastInDim S100000 ![] bcast_S_S100000 main_c_14
  let main_v40 : IVec S100000 1 := cmpi .sge main_arg3 main_v39
  let main_c_15 : IVec S_ 32 := constantI S_ 32 100000#32
  let main_v41 : IVec S100000 32 := broadcastInDim S100000 ![] bcast_S_S100000 main_c_15
  let main_v42 : IVec S100000 1 := cmpi .slt main_arg3 main_v41
  let main_v43 : IVec S100000 1 := andi main_v40 main_v42
  let main_c_16 : IVec S_ 1 := constantI S_ 1 1#1
  let main_v44 : IVec S_ 1 := (fun x v => Host.reduce IntOp.andi x v reducesTo_S100000_S_d0 h_S_) main_v43 main_c_16
  let main_v45 : IVec S_ 1 := andi main_v38 main_v44
  let main_c_17 : IVec S_ 32 := constantI S_ 32 0#32
  let main_v46 : IVec S100000x10 32 := broadcastInDim S100000x10 ![] bcast_S_S100000x10 main_c_17
  let main_v47 : IVec S100000x10 1 := cmpi .sge main_arg6 main_v46
  let main_c_18 : IVec S_ 32 := constantI S_ 32 100000#32
  let main_v48 : IVec S100000x10 32 := broadcastInDim S100000x10 ![] bcast_S_S100000x10 main_c_18
  let main_v49 : IVec S100000x10 1 := cmpi .slt main_arg6 main_v48
  let main_v50 : IVec S100000x10 1 := andi main_v47 main_v49
  fn_part3 (F := F) main_arg0 main_arg2 main_v45 main_v50

def fn_part1 {F : FTy → Type} [FloatOps F] (main_arg0 : IVec S1x100 32) (main_arg2 : IVec S50000 32) (main_arg3 : IVec S100000 32) (main_arg6 : IVec S100000x10 32) (main_arg8 : FVec F S128x128 .f32) (main_arg9 : FVec F S128x129 .f32) (main_arg10 : FVec F S128x129 .f32) (main_arg11 : FVec F S128x129 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x129 .f32 := Host.absf main_arg9
  let main_cst_8 : FVec F S_ .f32 := constant S_ .f32 0x7F800000#32
  let main_v25 : FVec F S128x129 .f32 := broadcastInDim S128x129 ![] bcast_S_S128x129 main_cst_8
  let main_v26 : IVec S128x129 1 := cmpf .olt main_v24 main_v25
  let main_c_9 : IVec S_ 1 := constantI S_ 1 1#1
  let main_v27 : IVec S_ 1 := (fun x v => Host.reduce IntOp.andi x v reducesTo_S128x129_S_d0_1 h_S_) main_v26 main_c_9
  let main_v28 : IVec S_ 1 := andi main_v23 main_v27
  let main_v29 : FVec F S128x129 .f32 := Host.absf main_arg10
  let main_cst_10 : FVec F S_ .f32 := constant S_ .f32 0x7F800000#32
  let main_v30 : FVec F S128x129 .f32 := broadcastInDim S128x129 ![] bcast_S_S128x129 main_cst_10
  let main_v31 : IVec S128x129 1 := cmpf .olt main_v29 main_v30
  let main_c_11 : IVec S_ 1 := constantI S_ 1 1#1
  let main_v32 : IVec S_ 1 := (fun x v => Host.reduce IntOp.andi x v reducesTo_S128x129_S_d0_1 h_S_) main_v31 main_c_11
  let main_v33 : IVec S_ 1 := andi main_v28 main_v32
  fn_part2 (F := F) main_arg0 main_arg2 main_arg3 main_arg6 main_arg11 main_v33

def fn {F : FTy → Type} [FloatOps F] (main_arg0 : IVec S1x100 32) (main_arg1 : FVec F S1x1 .f32) (main_arg2 : IVec S50000 32) (main_arg3 : IVec S100000 32) (main_arg4 : FVec F S100000x1 .f32) (main_arg5 : FVec F S100000x128 .f32) (main_arg6 : IVec S100000x10 32) (main_arg7 : FVec F S128x128 .f32) (main_arg8 : FVec F S128x128 .f32) (main_arg9 : FVec F S128x129 .f32) (main_arg10 : FVec F S128x129 .f32) (main_arg11 : FVec F S128x129 .f32) : IVec S_ 1 :=
  let main_v0 : FVec F S1x1 .f32 := Host.absf main_arg1
  let main_cst : FVec F S_ .f32 := constant S_ .f32 0x7F800000#32
  let main_v1 : FVec F S1x1 .f32 := broadcastInDim S1x1 ![] bcast_S_S1x1 main_cst
  let main_v2 : IVec S1x1 1 := cmpf .olt main_v0 main_v1
  let main_c : IVec S_ 1 := constantI S_ 1 1#1
  let main_v3 : IVec S_ 1 := (fun x v => Host.reduce IntOp.andi x v reducesTo_S1x1_S_d0_1 h_S_) main_v2 main_c
  let main_v4 : FVec F S100000x1 .f32 := Host.absf main_arg4
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x128 .f32 := Host.absf main_arg5
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg2 main_arg3 main_arg6 main_arg8 main_arg9 main_arg10 main_arg11 main_v13 main_v16
-- ==== Kernel.lean ====
abbrev S1x100 : Shape := ⟨2, ![1, 100]⟩
abbrev S1x1 : Shape := ⟨2, ![1, 1]⟩
abbrev S50000 : Shape := ⟨1, ![50000]⟩
abbrev S100000 : Shape := ⟨1, ![100000]⟩
abbrev S100000x1 : Shape := ⟨2, ![100000, 1]⟩
abbrev S100000x128 : Shape := ⟨2, ![100000, 128]⟩
abbrev S100000x10 : Shape := ⟨2, ![100000, 10]⟩
abbrev S128x128 : Shape := ⟨2, ![128, 128]⟩
abbrev S128x129 : Shape := ⟨2, ![128, 129]⟩
abbrev S_ : Shape := ⟨0, ![]⟩
abbrev S1 : Shape := ⟨1, ![1]⟩
abbrev S100000x10x1 : Shape := ⟨3, ![100000, 10, 1]⟩
abbrev S1x1x1 : Shape := ⟨3, ![1, 1, 1]⟩
abbrev S100000x10x128 : Shape := ⟨3, ![100000, 10, 128]⟩
abbrev S5000x128 : Shape := ⟨2, ![5000, 128]⟩
abbrev S5000x1 : Shape := ⟨2, ![5000, 1]⟩
abbrev S1x128 : Shape := ⟨2, ![1, 128]⟩
abbrev S100001x128 : Shape := ⟨2, ![100001, 128]⟩
abbrev S100 : Shape := ⟨1, ![100]⟩
abbrev S100x1 : Shape := ⟨2, ![100, 1]⟩
abbrev S100x128 : Shape := ⟨2, ![100, 128]⟩
abbrev S128 : Shape := ⟨1, ![128]⟩
abbrev S1x129 : Shape := ⟨2, ![1, 129]⟩
abbrev S51200 : Shape := ⟨1, ![51200]⟩
abbrev S51200x1 : Shape := ⟨2, ![51200, 1]⟩
abbrev S51200x128 : Shape := ⟨2, ![51200, 128]⟩
abbrev S2048x128 : Shape := ⟨2, ![2048, 128]⟩
abbrev S2048 : Shape := ⟨1, ![2048]⟩
abbrev S2048x129 : Shape := ⟨2, ![2048, 129]⟩

abbrev nBuf : Space → Nat
  | .hbm => 133
  | .vmem => 16
  | .smem => 0
  | _ => 0

abbrev hbmTy0_0 (i : Nat) : BufTy := match i % 128 with
  | 0 => ⟨S1x100, .i32⟩
  | 1 => ⟨S1x1, .f32⟩
  | 2 => ⟨S50000, .i32⟩
  | 3 => ⟨S100000, .i32⟩
  | 4 => ⟨S100000x1, .f32⟩
  | 5 => ⟨S100000x128, .f32⟩
  | 6 => ⟨S100000x10, .i32⟩
  | 7 => ⟨S128x128, .f32⟩
  | 8 => ⟨S128x128, .f32⟩
  | 9 => ⟨S128x129, .f32⟩
  | 10 => ⟨S128x129, .f32⟩
  | 11 => ⟨S128x129, .f32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S1, .i32⟩
  | 21 => ⟨S_, .i32⟩
  | 22 => ⟨S100000x1, .i32⟩
  | 23 => ⟨S100000x1, .i1⟩
  | 24 => ⟨S1x1, .i32⟩
  | 25 => ⟨S100000x1, .i32⟩
  | 26 => ⟨S100000x1, .i1⟩
  | 27 => ⟨S100000x1, .i1⟩
  | 28 => ⟨S_, .i1⟩
  | 29 => ⟨S100000, .i1⟩
  | 30 => ⟨S100000x128, .f32⟩
  | 31 => ⟨S100000x128, .i1⟩
  | 32 => ⟨S_, .f32⟩
  | 33 => ⟨S100000x128, .f32⟩
  | 34 => ⟨S100000x128, .f32⟩
  | 35 => ⟨S_, .i32⟩
  | 36 => ⟨S100000x10, .i32⟩
  | 37 => ⟨S100000x10, .i1⟩
  | 38 => ⟨S_, .i32⟩
  | 39 => ⟨S100000x10, .i32⟩
  | 40 => ⟨S100000x10, .i32⟩
  | 41 => ⟨S100000x10, .i32⟩
  | 42 => ⟨S100000x10x1, .i32⟩
  | 43 => ⟨S1, .i32⟩
  | 44 => ⟨S_, .i32⟩
  | 45 => ⟨S100000x10x1, .i32⟩
  | 46 => ⟨S100000x10x1, .i1⟩
  | 47 => ⟨S1x1x1, .i32⟩
  | 48 => ⟨S100000x10x1, .i32⟩
  | 49 => ⟨S100000x10x1, .i1⟩
  | 50 => ⟨S100000x10x1, .i1⟩
  | 51 => ⟨S_, .i1⟩
  | 52 => ⟨S100000x10, .i1⟩
  | 53 => ⟨S100000x10x128, .f32⟩
  | 54 => ⟨S100000x10x128, .i1⟩
  | 55 => ⟨S_, .f32⟩
  | 56 => ⟨S100000x10x128, .f32⟩
  | 57 => ⟨S100000x10x128, .f32⟩
  | 58 => ⟨S_, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S_, .f32⟩
  | 65 => ⟨S1x128, .f32⟩
  | 66 => ⟨S100001x128, .f32⟩
  | 67 => ⟨S100, .i32⟩
  | 68 => ⟨S_, .i32⟩
  | 69 => ⟨S100, .i32⟩
  | 70 => ⟨S100, .i1⟩
  | 71 => ⟨S_, .i32⟩
  | 72 => ⟨S100, .i32⟩
  | 73 => ⟨S100, .i32⟩
  | 74 => ⟨S100, .i32⟩
  | 75 => ⟨S100x1, .i32⟩
  | 76 => ⟨S1, .i32⟩
  | 77 => ⟨S_, .i32⟩
  | 78 => ⟨S100x1, .i32⟩
  | 79 => ⟨S100x1, .i1⟩
  | 80 => ⟨S1x1, .i32⟩
  | 81 => ⟨S100x1, .i32⟩
  | 82 => ⟨S100x1, .i1⟩
  | 83 => ⟨S100x1, .i1⟩
  | 84 => ⟨S_, .i1⟩
  | 85 => ⟨S100, .i1⟩
  | 86 => ⟨S100x128, .f32⟩
  | 87 => ⟨S100x128, .i1⟩
  | 88 => ⟨S_, .f32⟩
  | 89 => ⟨S100x128, .f32⟩
  | 90 => ⟨S100x128, .f32⟩
  | 91 => ⟨S_, .f32⟩
  | 92 => ⟨S128, .f32⟩
  | 93 => ⟨S1x128, .f32⟩
  | 94 => ⟨S1x128, .f32⟩
  | 95 => ⟨S1x128, .f32⟩
  | 96 => ⟨S1x129, .f32⟩
  | 97 => ⟨S1x129, .f32⟩
  | 98 => ⟨S1x129, .f32⟩
  | 99 => ⟨S_, .f32⟩
  | 100 => ⟨S1x129, .f32⟩
  | 101 => ⟨S1x129, .f32⟩
  | 102 => ⟨S_, .f32⟩
  | 103 => ⟨S1x129, .f32⟩
  | 104 => ⟨S1x129, .f32⟩
  | 105 => ⟨S_, .i32⟩
  | 106 => ⟨S_, .i32⟩
  | 107 => ⟨S51200, .i32⟩
  | 108 => ⟨S_, .i32⟩
  | 109 => ⟨S51200, .i32⟩
  | 110 => ⟨S51200, .i1⟩
  | 111 => ⟨S_, .i32⟩
  | 112 => ⟨S51200, .i32⟩
  | 113 => ⟨S51200, .i32⟩
  | 114 => ⟨S51200, .i32⟩
  | 115 => ⟨S51200x1, .i32⟩
  | 116 => ⟨S1, .i32⟩
  | 117 => ⟨S_, .i32⟩
  | 118 => ⟨S51200x1, .i32⟩
  | 119 => ⟨S51200x1, .i1⟩
  | 120 => ⟨S1x1, .i32⟩
  | 121 => ⟨S51200x1, .i32⟩
  | 122 => ⟨S51200x1, .i1⟩
  | 123 => ⟨S51200x1, .i1⟩
  | 124 => ⟨S_, .i1⟩
  | 125 => ⟨S51200, .i1⟩
  | 126 => ⟨S51200x128, .f32⟩
  | 127 => ⟨S51200x128, .i1⟩
  | _ => ⟨S1x100, .i32⟩

abbrev hbmTy0_1 (i : Nat) : BufTy := match i % 128 with
  | 0 => ⟨S_, .f32⟩
  | 1 => ⟨S51200x128, .f32⟩
  | 2 => ⟨S51200x128, .f32⟩
  | 3 => ⟨S51200, .f32⟩
  | 4 => ⟨S50000, .f32⟩
  | _ => ⟨S1x100, .i32⟩

abbrev hbmTy (i : Nat) : BufTy := match i / 128 with
  | 0 => hbmTy0_0 i
  | 1 => hbmTy0_1 i
  | _ => ⟨S1x100, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S2048x128, .f32⟩
  | .local _ .vmem, ⟨11, _⟩ => ⟨S2048x128, .f32⟩
  | .local _ .vmem, ⟨12, _⟩ => ⟨S128x129, .f32⟩
  | .local _ .vmem, ⟨13, _⟩ => ⟨S1x129, .f32⟩
  | .local _ .vmem, ⟨14, _⟩ => ⟨S2048, .f32⟩
  | .local _ .vmem, ⟨15, _⟩ => ⟨S2048, .f32⟩
  | _, _ => ⟨S1x100, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_cst : Ref sig .tc := ⟨.hbm, 58, rfl⟩
abbrev main_v2 : Ref sig .tc := ⟨.hbm, 59, rfl⟩
abbrev main_cst_0 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_cst_1 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v9 : Ref sig .tc := ⟨.hbm, 90, rfl⟩
abbrev main_cst_2 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_cst_3 : Ref sig .tc := ⟨.hbm, 99, rfl⟩
abbrev main_v17 : Ref sig .tc := ⟨.hbm, 100, rfl⟩
abbrev main_v18 : Ref sig .tc := ⟨.hbm, 101, rfl⟩
abbrev main_cst_4 : Ref sig .tc := ⟨.hbm, 102, rfl⟩
abbrev main_v19 : Ref sig .tc := ⟨.hbm, 103, rfl⟩
abbrev main_v20 : Ref sig .tc := ⟨.hbm, 104, rfl⟩
abbrev main_c : Ref sig .tc := ⟨.hbm, 105, rfl⟩
abbrev main_call3_v0 : Ref sig .tc := ⟨.hbm, 106, rfl⟩
abbrev main_v21 : Ref sig .tc := ⟨.hbm, 107, rfl⟩
abbrev main_call4_c : Ref sig .tc := ⟨.hbm, 108, rfl⟩
abbrev main_call4_v0 : Ref sig .tc := ⟨.hbm, 109, rfl⟩
abbrev main_call4_v1 : Ref sig .tc := ⟨.hbm, 110, rfl⟩
abbrev main_call4_c_0 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_c_1 : Ref sig .tc := ⟨.hbm, 116, rfl⟩
abbrev main_call4_c_2 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_v9 : Ref sig .tc := ⟨.hbm, 121, rfl⟩
abbrev main_call4_v10 : Ref sig .tc := ⟨.hbm, 122, rfl⟩
abbrev main_call4_v11 : Ref sig .tc := ⟨.hbm, 123, rfl⟩
abbrev main_call4_c_3 : Ref sig .tc := ⟨.hbm, 124, rfl⟩
abbrev main_call4_v12 : Ref sig .tc := ⟨.hbm, 125, rfl⟩
abbrev main_call4_v13 : Ref sig .tc := ⟨.hbm, 126, rfl⟩
abbrev main_call4_v14 : Ref sig .tc := ⟨.hbm, 127, rfl⟩
abbrev main_call4_cst : Ref sig .tc := ⟨.hbm, 128, rfl⟩
abbrev main_call4_v15 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x129 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x129 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  bcast_S_S100000x10x1 : S_.BroadcastsInDim S100000x10x1 (![] : Fin 0 → Fin S100000x10x1.rank)
  bcast_S1_S1x1x1_2 : S1.BroadcastsInDim S1x1x1 (![2] : Fin 1 → Fin S1x1x1.rank)
  bcast_S1x1x1_S100000x10x1_0_1_2 : S1x1x1.BroadcastsInDim S100000x10x1 (![0, 1, 2] : Fin 3 → Fin S100000x10x1.rank)
  reducesTo_S100000x10x1_S100000x10_d2 : S100000x10x1.ReducesTo [2] S100000x10
  bcast_S100000x10_S100000x10x128_0_1 : S100000x10.BroadcastsInDim S100000x10x128 (![0, 1] : Fin 2 → Fin S100000x10x128.rank)
  bcast_S_S100000x10x128 : S_.BroadcastsInDim S100000x10x128 (![] : Fin 0 → Fin S100000x10x128.rank)
  reducesTo_S100000x10x128_S100000x128_d1 : S100000x10x128.ReducesTo [1] S100000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  bcast_S_S1x128 : S_.BroadcastsInDim S1x128 (![] : Fin 0 → Fin S1x128.rank)
  concatenates_S100000x128_S1x128_S100001x128_d0 : Shape.Concatenates [S100000x128, S1x128] S100001x128 0
  shapeCasts_S1x100_S100 : S1x100.ShapeCasts S100
  bcast_S_S100 : S_.BroadcastsInDim S100 (![] : Fin 0 → Fin S100.rank)
  bcast_S100_S100x1_0 : S100.BroadcastsInDim S100x1 (![0] : Fin 1 → Fin S100x1.rank)
  bcast_S_S100x1 : S_.BroadcastsInDim S100x1 (![] : Fin 0 → Fin S100x1.rank)
  bcast_S1x1_S100x1_0_1 : S1x1.BroadcastsInDim S100x1 (![0, 1] : Fin 2 → Fin S100x1.rank)
  reducesTo_S100x1_S100_d1 : S100x1.ReducesTo [1] S100
  bcast_S100_S100x128_0 : S100.BroadcastsInDim S100x128 (![0] : Fin 1 → Fin S100x128.rank)
  bcast_S_S100x128 : S_.BroadcastsInDim S100x128 (![] : Fin 0 → Fin S100x128.rank)
  reducesTo_S100x128_S128_d0 : S100x128.ReducesTo [0] S128
  bcast_S128_S1x128_1 : S128.BroadcastsInDim S1x128 (![1] : Fin 1 → Fin S1x128.rank)
  bcast_S1x1_S1x128_0_1 : S1x1.BroadcastsInDim S1x128 (![0, 1] : Fin 2 → Fin S1x128.rank)
  bcast_S_S1x129 : S_.BroadcastsInDim S1x129 (![] : Fin 0 → Fin S1x129.rank)
  pads_S50000_S51200_012000 : S50000.Pads (![0] : Fin 1 → Nat) ![1200] ![0] S51200
  bcast_S_S51200 : S_.BroadcastsInDim S51200 (![] : Fin 0 → Fin S51200.rank)
  bcast_S51200_S51200x1_0 : S51200.BroadcastsInDim S51200x1 (![0] : Fin 1 → Fin S51200x1.rank)
  bcast_S_S51200x1 : S_.BroadcastsInDim S51200x1 (![] : Fin 0 → Fin S51200x1.rank)
  bcast_S1x1_S51200x1_0_1 : S1x1.BroadcastsInDim S51200x1 (![0, 1] : Fin 2 → Fin S51200x1.rank)
  reducesTo_S51200x1_S51200_d1 : S51200x1.ReducesTo [1] S51200
  bcast_S51200_S51200x128_0 : S51200.BroadcastsInDim S51200x128 (![0] : Fin 1 → Fin S51200x128.rank)
  bcast_S_S51200x128 : S_.BroadcastsInDim S51200x128 (![] : Fin 0 → Fin S51200x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x129_S128x129_0_0 : ∀ a, (![0, 0] : Fin 2 → Nat) a + S128x129.size a ≤ S128x129.size a
  h_S128x129 : 0 < S128x129.numel
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S2048x129 : S1x129.Broadcasts S2048x129
  reduces_S2048x129_S2048 : S2048x129.Reduces [1] S2048
  inb_S2048_S2048_0 : ∀ a, (![0] : Fin 1 → Nat) a + S2048.size a ≤ S2048.size a
  h_S2048 : 0 < S2048.numel
  slices_S51200_S50000_0 : S51200.Slices ![0] S50000
  gather_S100000x128_S100000x1_S100000x128_1_0_n_n_0_1_1128_wf : GatherDims.WF S100000x128 S100000x1 S100000x128 [1] [0] [] [0] [] 1 ![1, 128]
  gather_S100000x128_S100000x10x1_S100000x10x128_2_0_n_n_0_2_1128_wf : GatherDims.WF S100000x128 S100000x10x1 S100000x10x128 [2] [0] [] [0] [] 2 ![1, 128]
  dot_S5000x128_S128x128_S5000x128_1_0_0_1_n_n_wf : DotDims.WF S5000x128 S128x128 S5000x128 [1] [0] [0] [1] [] []
  gather_S100001x128_S100x1_S100x128_1_0_n_n_0_1_1128_wf : GatherDims.WF S100001x128 S100x1 S100x128 [1] [0] [] [0] [] 1 ![1, 128]
  dot_S1x128_S128x129_S1x129_1_0_0_1_n_n_wf : DotDims.WF S1x128 S128x129 S1x129 [1] [0] [0] [1] [] []
  gather_S100000x128_S51200x1_S51200x128_1_0_n_n_0_1_1128_wf : GatherDims.WF S100000x128 S51200x1 S51200x128 [1] [0] [] [0] [] 1 ![1, 128]
  dot_S2048x128_S128x129_S2048x129_1_0_0_1_n_n_wf : DotDims.WF S2048x128 S128x129 S2048x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S51200x128.size a
  hwx1_0 : ∀ i : grid1.Coords, EltTy.bits .f32 = 32 ∨ (Rect.block (s := S51200x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x129.size a ≤ S128x129.size a
  hwx1_1 : ∀ i : grid1.Coords, EltTy.bits .f32 = 32 ∨ (Rect.block (s := S128x129) S128x129.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x129.size a ≤ S1x129.size a
  hwx1_2 : ∀ i : grid1.Coords, EltTy.bits .f32 = 32 ∨ (Rect.block (s := S1x129) S1x129.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048.size a ≤ S51200.size a
  hwx1_3 : ∀ i : grid1.Coords, EltTy.bits .f32 = 32 ∨ (Rect.block (s := S51200) S2048.size (cc1_transform_3 i) (hinb1_3 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S100000x10x1_S100000x10x128_2_0_n_n_0_2_1128 : GatherDims S100000x128 S100000x10x1 S100000x10x128 where
  offsetDims := [2]
  collapsedSliceDims := [0]
  operandBatchingDims := []
  startIndicesBatchingDims := []
  startIndexMap := [0]
  indexVectorDim := 2
  sliceSizes := ![1, 128]
  wf := gather_S100000x128_S100000x10x1_S100000x10x128_2_0_n_n_0_2_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100001x128_S100x1_S100x128_1_0_n_n_0_1_1128 : GatherDims S100001x128 S100x1 S100x128 where
  offsetDims := [1]
  collapsedSliceDims := [0]
  operandBatchingDims := []
  startIndicesBatchingDims := []
  startIndexMap := [0]
  indexVectorDim := 1
  sliceSizes := ![1, 128]
  wf := gather_S100001x128_S100x1_S100x128_1_0_n_n_0_1_1128_wf
def dot_S1x128_S128x129_S1x129_1_0_0_1_n_n : DotDims S1x128 S128x129 S1x129 where
  lhsContracting := [1]
  rhsContracting := [0]
  lhsNonContracting := [0]
  rhsNonContracting := [1]
  lhsBatch := []
  rhsBatch := []
  wf := dot_S1x128_S128x129_S1x129_1_0_0_1_n_n_wf
def gather_S100000x128_S51200x1_S51200x128_1_0_n_n_0_1_1128 : GatherDims S100000x128 S51200x1 S51200x128 where
  offsetDims := [1]
  collapsedSliceDims := [0]
  operandBatchingDims := []
  startIndicesBatchingDims := []
  startIndexMap := [0]
  indexVectorDim := 1
  sliceSizes := ![1, 128]
  wf := gather_S100000x128_S51200x1_S51200x128_1_0_n_n_0_1_1128_wf
def dot_S2048x128_S128x129_S2048x129_1_0_0_1_n_n : DotDims S2048x128 S128x129 S2048x129 where
  lhsContracting := [1]
  rhsContracting := [0]
  lhsNonContracting := [0]
  rhsNonContracting := [1]
  lhsBatch := []
  rhsBatch := []
  wf := dot_S2048x128_S128x129_S2048x129_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x129.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x129.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x100 : Shape := ⟨2, ![1, 100]⟩
abbrev S1x1 : Shape := ⟨2, ![1, 1]⟩
abbrev S50000 : Shape := ⟨1, ![50000]⟩
abbrev S100000 : Shape := ⟨1, ![100000]⟩
abbrev S100000x1 : Shape := ⟨2, ![100000, 1]⟩
abbrev S100000x128 : Shape := ⟨2, ![100000, 128]⟩
abbrev S100000x10 : Shape := ⟨2, ![100000, 10]⟩
abbrev S128x128 : Shape := ⟨2, ![128, 128]⟩
abbrev S128x129 : Shape := ⟨2, ![128, 129]⟩
abbrev S_ : Shape := ⟨0, ![]⟩
abbrev S100000x10x1 : Shape := ⟨3, ![100000, 10, 1]⟩
abbrev S100000x10x128 : Shape := ⟨3, ![100000, 10, 128]⟩
abbrev S1x128 : Shape := ⟨2, ![1, 128]⟩
abbrev S100001x128 : Shape := ⟨2, ![100001, 128]⟩
abbrev S1x100x1 : Shape := ⟨3, ![1, 100, 1]⟩
abbrev S1x100x128 : Shape := ⟨3, ![1, 100, 128]⟩
abbrev S1x129 : Shape := ⟨2, ![1, 129]⟩
abbrev S128 : Shape := ⟨1, ![128]⟩
abbrev S50000x1 : Shape := ⟨2, ![50000, 1]⟩
abbrev S50000x128 : Shape := ⟨2, ![50000, 128]⟩
abbrev S50000x129 : Shape := ⟨2, ![50000, 129]⟩

abbrev nBuf : Space → Nat
  | .hbm => 111
  | .vmem => 0
  | .smem => 0
  | _ => 0

abbrev bufTy : (tb : Table) → Fin (tcTables nBuf tb) → BufTy
  | .hbm, ⟨0, _⟩ => ⟨S1x100, .i32⟩
  | .hbm, ⟨1, _⟩ => ⟨S1x1, .f32⟩
  | .hbm, ⟨2, _⟩ => ⟨S50000, .i32⟩
  | .hbm, ⟨3, _⟩ => ⟨S100000, .i32⟩
  | .hbm, ⟨4, _⟩ => ⟨S100000x1, .f32⟩
  | .hbm, ⟨5, _⟩ => ⟨S100000x128, .f32⟩
  | .hbm, ⟨6, _⟩ => ⟨S100000x10, .i32⟩
  | .hbm, ⟨7, _⟩ => ⟨S128x128, .f32⟩
  | .hbm, ⟨8, _⟩ => ⟨S128x128, .f32⟩
  | .hbm, ⟨9, _⟩ => ⟨S128x129, .f32⟩
  | .hbm, ⟨10, _⟩ => ⟨S128x129, .f32⟩
  | .hbm, ⟨11, _⟩ => ⟨S128x129, .f32⟩
  | .hbm, ⟨12, _⟩ => ⟨S_, .i32⟩
  | .hbm, ⟨13, _⟩ => ⟨S100000, .i32⟩
  | .hbm, ⟨14, _⟩ => ⟨S100000, .i1⟩
  | .hbm, ⟨15, _⟩ => ⟨S_, .i32⟩
  | .hbm, ⟨16, _⟩ => ⟨S100000, .i32⟩
  | .hbm, ⟨17, _⟩ => ⟨S100000, .i32⟩
  | .hbm, ⟨18, _⟩ => ⟨S100000, .i32⟩
  | .hbm, ⟨19, _⟩ => ⟨S100000x1, .i32⟩
  | .hbm, ⟨20, _⟩ => ⟨S100000x128, .f32⟩
  | .hbm, ⟨21, _⟩ => ⟨S_, .i32⟩
  | .hbm, ⟨22, _⟩ => ⟨S100000x10, .i32⟩
  | .hbm, ⟨23, _⟩ => ⟨S100000x10, .i1⟩
  | .hbm, ⟨24, _⟩ => ⟨S_, .i32⟩
  | .hbm, ⟨25, _⟩ => ⟨S100000x10, .i32⟩
  | .hbm, ⟨26, _⟩ => ⟨S100000x10, .i32⟩
  | .hbm, ⟨27, _⟩ => ⟨S100000x10, .i32⟩
  | .hbm, ⟨28, _⟩ => ⟨S100000x10x1, .i32⟩
  | .hbm, ⟨29, _⟩ => ⟨S100000x10x128, .f32⟩
  | .hbm, ⟨30, _⟩ => ⟨S_, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S1x128, .f32⟩
  | .hbm, ⟨45, _⟩ => ⟨S100001x128, .f32⟩
  | .hbm, ⟨46, _⟩ => ⟨S_, .i32⟩
  | .hbm, ⟨47, _⟩ => ⟨S1x100, .i32⟩
  | .hbm, ⟨48, _⟩ => ⟨S1x100, .i1⟩
  | .hbm, ⟨49, _⟩ => ⟨S_, .i32⟩
  | .hbm, ⟨50, _⟩ => ⟨S1x100, .i32⟩
  | .hbm, ⟨51, _⟩ => ⟨S1x100, .i32⟩
  | .hbm, ⟨52, _⟩ => ⟨S1x100, .i32⟩
  | .hbm, ⟨53, _⟩ => ⟨S1x100x1, .i32⟩
  | .hbm, ⟨54, _⟩ => ⟨S1x100x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x129, .f32⟩
  | .hbm, ⟨60, _⟩ => ⟨S1x129, .f32⟩
  | .hbm, ⟨61, _⟩ => ⟨S1x129, .f32⟩
  | .hbm, ⟨62, _⟩ => ⟨S_, .f32⟩
  | .hbm, ⟨63, _⟩ => ⟨S1x129, .f32⟩
  | .hbm, ⟨64, _⟩ => ⟨S1x129, .f32⟩
  | .hbm, ⟨65, _⟩ => ⟨S_, .f32⟩
  | .hbm, ⟨66, _⟩ => ⟨S1x129, .f32⟩
  | .hbm, ⟨67, _⟩ => ⟨S1x129, .f32⟩
  | .hbm, ⟨68, _⟩ => ⟨S_, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x129, .f32⟩
  | .hbm, ⟨75, _⟩ => ⟨S1x129, .f32⟩
  | .hbm, ⟨76, _⟩ => ⟨S1x129, .f32⟩
  | .hbm, ⟨77, _⟩ => ⟨S_, .f32⟩
  | .hbm, ⟨78, _⟩ => ⟨S1x129, .f32⟩
  | .hbm, ⟨79, _⟩ => ⟨S1x129, .f32⟩
  | .hbm, ⟨80, _⟩ => ⟨S_, .f32⟩
  | .hbm, ⟨81, _⟩ => ⟨S1x129, .f32⟩
  | .hbm, ⟨82, _⟩ => ⟨S1x129, .f32⟩
  | .hbm, ⟨83, _⟩ => ⟨S_, .i32⟩
  | .hbm, ⟨84, _⟩ => ⟨S50000, .i32⟩
  | .hbm, ⟨85, _⟩ => ⟨S50000, .i1⟩
  | .hbm, ⟨86, _⟩ => ⟨S_, .i32⟩
  | .hbm, ⟨87, _⟩ => ⟨S50000, .i32⟩
  | .hbm, ⟨88, _⟩ => ⟨S50000, .i32⟩
  | .hbm, ⟨89, _⟩ => ⟨S50000, .i32⟩
  | .hbm, ⟨90, _⟩ => ⟨S50000x1, .i32⟩
  | .hbm, ⟨91, _⟩ => ⟨S50000x128, .f32⟩
  | .hbm, ⟨92, _⟩ => ⟨S50000x129, .f32⟩
  | .hbm, ⟨93, _⟩ => ⟨S50000x129, .f32⟩
  | .hbm, ⟨94, _⟩ => ⟨S50000x129, .f32⟩
  | .hbm, ⟨95, _⟩ => ⟨S_, .f32⟩
  | .hbm, ⟨96, _⟩ => ⟨S50000x129, .f32⟩
  | .hbm, ⟨97, _⟩ => ⟨S50000x129, .f32⟩
  | .hbm, ⟨98, _⟩ => ⟨S_, .f32⟩
  | .hbm, ⟨99, _⟩ => ⟨S50000x129, .f32⟩
  | .hbm, ⟨100, _⟩ => ⟨S50000x129, .f32⟩
  | .hbm, ⟨101, _⟩ => ⟨S50000x129, .f32⟩
  | .hbm, ⟨102, _⟩ => ⟨S50000x129, .f32⟩
  | .hbm, ⟨103, _⟩ => ⟨S_, .f32⟩
  | .hbm, ⟨104, _⟩ => ⟨S50000, .f32⟩
  | .hbm, ⟨105, _⟩ => ⟨S_, .f32⟩
  | .hbm, ⟨106, _⟩ => ⟨S50000, .f32⟩
  | .hbm, ⟨107, _⟩ => ⟨S50000, .f32⟩
  | .hbm, ⟨108, _⟩ => ⟨S_, .f32⟩
  | .hbm, ⟨109, _⟩ => ⟨S50000, .f32⟩
  | .hbm, ⟨110, _⟩ => ⟨S50000, .f32⟩
  | _, _ => ⟨S1x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call0_cst : Ref sig .tc := ⟨.hbm, 38, rfl⟩
abbrev main_call0_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_cst_11 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_c_14 : Ref sig .tc := ⟨.hbm, 83, rfl⟩
abbrev main_v53 : Ref sig .tc := ⟨.hbm, 84, rfl⟩
abbrev main_v54 : Ref sig .tc := ⟨.hbm, 85, rfl⟩
abbrev main_c_15 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_16 : Ref sig .tc := ⟨.hbm, 95, rfl⟩
abbrev main_v63 : Ref sig .tc := ⟨.hbm, 96, rfl⟩
abbrev main_v64 : Ref sig .tc := ⟨.hbm, 97, rfl⟩
abbrev main_cst_17 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_18 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_cst_20 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x10 : S_.BroadcastsInDim S100000x10 (![] : Fin 0 → Fin S100000x10.rank)
  bcast_S100000x10_S100000x10x1_0_1 : S100000x10.BroadcastsInDim S100000x10x1 (![0, 1] : Fin 2 → Fin S100000x10x1.rank)
  reducesTo_S100000x10x128_S100000x128_d1 : S100000x10x128.ReducesTo [1] S100000x128
  h_S_ : 0 < S_.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S_S1x128 : S_.BroadcastsInDim S1x128 (![] : Fin 0 → Fin S1x128.rank)
  concatenates_S100000x128_S1x128_S100001x128_d0 : Shape.Concatenates [S100000x128, S1x128] S100001x128 0
  bcast_S_S1x100 : S_.BroadcastsInDim S1x100 (![] : Fin 0 → Fin S1x100.rank)
  bcast_S1x100_S1x100x1_0_1 : S1x100.BroadcastsInDim S1x100x1 (![0, 1] : Fin 2 → Fin S1x100x1.rank)
  reducesTo_S1x100x128_S1x128_d1 : S1x100x128.ReducesTo [1] S1x128
  bcast_S1x1_S1x128_0_1 : S1x1.BroadcastsInDim S1x128 (![0, 1] : Fin 2 → Fin S1x128.rank)
  bcast_S_S1x129 : S_.BroadcastsInDim S1x129 (![] : Fin 0 → Fin S1x129.rank)
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x129 : S_.BroadcastsInDim S50000x129 (![] : Fin 0 → Fin S50000x129.rank)
  bcast_S1x129_S50000x129_0_1 : S1x129.BroadcastsInDim S50000x129 (![0, 1] : Fin 2 → Fin S50000x129.rank)
  reducesTo_S50000x129_S50000_d1 : S50000x129.ReducesTo [1] S50000
  gather_S100000x128_S100000x1_S100000x128_1_0_n_n_0_1_1128_wf : GatherDims.WF S100000x128 S100000x1 S100000x128 [1] [0] [] [0] [] 1 ![1, 128]
  gather_S100000x128_S100000x10x1_S100000x10x128_2_0_n_n_0_2_1128_wf : GatherDims.WF S100000x128 S100000x10x1 S100000x10x128 [2] [0] [] [0] [] 2 ![1, 128]
  dot_S100000x128_S128x128_S100000x128_1_0_0_1_n_n_wf : DotDims.WF S100000x128 S128x128 S100000x128 [1] [0] [0] [1] [] []
  gather_S100001x128_S1x100x1_S1x100x128_2_0_n_n_0_2_1128_wf : GatherDims.WF S100001x128 S1x100x1 S1x100x128 [2] [0] [] [0] [] 2 ![1, 128]
  dot_S1x128_S128x129_S1x129_1_0_0_1_n_n_wf : DotDims.WF S1x128 S128x129 S1x129 [1] [0] [0] [1] [] []
  gather_S100000x128_S50000x1_S50000x128_1_0_n_n_0_1_1128_wf : GatherDims.WF S100000x128 S50000x1 S50000x128 [1] [0] [] [0] [] 1 ![1, 128]
  dot_S50000x128_S128x129_S50000x129_1_0_0_1_n_n_wf : DotDims.WF S50000x128 S128x129 S50000x129 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S100000x10x1_S100000x10x128_2_0_n_n_0_2_1128 : GatherDims S100000x128 S100000x10x1 S100000x10x128 where
  offsetDims := [2]
  collapsedSliceDims := [0]
  operandBatchingDims := []
  startIndicesBatchingDims := []
  startIndexMap := [0]
  indexVectorDim := 2
  sliceSizes := ![1, 128]
  wf := gather_S100000x128_S100000x10x1_S100000x10x128_2_0_n_n_0_2_1128_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100001x128_S1x100x1_S1x100x128_2_0_n_n_0_2_1128 : GatherDims S100001x128 S1x100x1 S1x100x128 where
  offsetDims := [2]
  collapsedSliceDims := [0]
  operandBatchingDims := []
  startIndicesBatchingDims := []
  startIndexMap := [0]
  indexVectorDim := 2
  sliceSizes := ![1, 128]
  wf := gather_S100001x128_S1x100x1_S1x100x128_2_0_n_n_0_2_1128_wf
def dot_S1x128_S128x129_S1x129_1_0_0_1_n_n : DotDims S1x128 S128x129 S1x129 where
  lhsContracting := [1]
  rhsContracting := [0]
  lhsNonContracting := [0]
  rhsNonContracting := [1]
  lhsBatch := []
  rhsBatch := []
  wf := dot_S1x128_S128x129_S1x129_1_0_0_1_n_n_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x128_S128x129_S50000x129_1_0_0_1_n_n : DotDims S50000x128 S128x129 S50000x129 where
  lhsContracting := [1]
  rhsContracting := [0]
  lhsNonContracting := [0]
  rhsNonContracting := [1]
  lhsBatch := []
  rhsBatch := []
  wf := dot_S50000x128_S128x129_S50000x129_1_0_0_1_n_n_wf

class Facts : Prop extends Facts₀ where

variable [Facts]
-- ==== Proof.KernelStages.lean ====
/-
  The kernel program's host stretches as whole-array stages, each a function of the arrays it reads. A `jnp.take` is the
  row gather guarded by a range test: where the (wrapped) index lies outside `[0, n − 1]` the row is the not-a-number
  fill instead of a gathered row (`takeNodes`, `takeNeigh`, `takeSeeds`, `takeCand`). The other stages are the neighbour
  mean `nbK`, the zero-row padding `padK`, the seeds' logistic projection `smK`, the candidate list padded with
  zeros to a whole number of blocks, and the final slice back to the candidates' length.
-/
import proofs.«421012_j32959579030378_1_alg».proof.Proof.Gen.KernelIdeal

set_option maxRecDepth 8192

noncomputable section

namespace Cert.KernelIdeal.Stages

open Cert.KernelIdeal Cert.KernelIdeal.Gen Idealize.ShloMosaic Idealize.ShloMosaic.TcCoe Idealize.SL.Sem

variable {F : FTy → Type} [FloatOps F]

/-! ## The node rows: indices `[100000]` into `[100000, 128]` -/

def wrapNodes (a3 : IVec S100000 32) : IVec S100000 32 :=
  select (cmpi .slt a3 (broadcastInDim S100000 ![] bcast_S_S100000 (constantI S_ 32 0#32)))
    (addi a3 (broadcastInDim S100000 ![] bcast_S_S100000 (constantI S_ 32 100000#32))) a3
def colNodes (a3 : IVec S100000 32) : IVec S100000x1 32 :=
  broadcastInDim S100000x1 ![0] bcast_S100000_S100000x1_0 (wrapNodes a3)
/-- The range test of each start index: `0 ≤ i ∧ i ≤ 99999`. -/
def okNodes (a3 : IVec S100000 32) : IVec S100000 1 :=
  Host.reduce IntOp.andi
    (andi (cmpi .sge (colNodes a3) (broadcastInDim S100000x1 ![] bcast_S_S100000x1 (constantI S_ 32 0#32)))
      (cmpi .sle (colNodes a3) (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_
def takeNodes (a5 : FVec F S100000x128 .f32) (a3 : IVec S100000 32) : FVec F S100000x128 .f32 :=
  select (broadcastInDim S100000x128 ![0] bcast_S100000_S100000x128_0 (okNodes a3))
    (Host.gather gather_S100000x128_S100000x1_S100000x128_1_0_n_n_0_1_1128 a5 (colNodes a3))
    (broadcastInDim S100000x128 ![] bcast_S_S100000x128 (constant S_ .f32 0x7FC00000#32))

/-! ## The neighbour rows: indices `[100000, 10]` into `[100000, 128]` -/

def wrapNeigh (a6 : IVec S100000x10 32) : IVec S100000x10 32 :=
  select (cmpi .slt a6 (broadcastInDim S100000x10 ![] bcast_S_S100000x10 (constantI S_ 32 0#32)))
    (addi a6 (broadcastInDim S100000x10 ![] bcast_S_S100000x10 (constantI S_ 32 100000#32))) a6
def colNeigh (a6 : IVec S100000x10 32) : IVec S100000x10x1 32 :=
  broadcastInDim S100000x10x1 ![0, 1] bcast_S100000x10_S100000x10x1_0_1 (wrapNeigh a6)
def okNeigh (a6 : IVec S100000x10 32) : IVec S100000x10 1 :=
  Host.reduce IntOp.andi
    (andi (cmpi .sge (colNeigh a6) (broadcastInDim S100000x10x1 ![] bcast_S_S100000x10x1 (constantI S_ 32 0#32)))
      (cmpi .sle (colNeigh a6) (broadcastInDim S100000x10x1 ![0, 1, 2] bcast_S1x1x1_S100000x10x1_0_1_2
        (broadcastInDim S1x1x1 ![2] bcast_S1_S1x1x1_2 (constantI S1 32 99999#32)))))
    (constantI S_ 1 1#1) reducesTo_S100000x10x1_S100000x10_d2 h_S_
def takeNeigh (a5 : FVec F S100000x128 .f32) (a6 : IVec S100000x10 32) : FVec F S100000x10x128 .f32 :=
  select (broadcastInDim S100000x10x128 ![0, 1] bcast_S100000x10_S100000x10x128_0_1 (okNeigh a6))
    (Host.gather gather_S100000x128_S100000x10x1_S100000x10x128_2_0_n_n_0_2_1128 a5 (colNeigh a6))
    (broadcastInDim S100000x10x128 ![] bcast_S_S100000x10x128 (constant S_ .f32 0x7FC00000#32))
/-- The mean of each node's ten taken neighbour rows. -/
def nbK (a5 : FVec F S100000x128 .f32) (a6 : IVec S100000x10 32) : FVec F S100000x128 .f32 :=
  Host.divf (Host.reduceAdd (takeNeigh a5 a6) (constant S_ .f32 0x00000000#32) reducesTo_S100000x10x128_S100000x128_d1 h_S_)
    (broadcastInDim S100000x128 ![] bcast_S_S100000x128 (constant S_ .f32 0x41200000#32))

/-! ## The padded embedding and the seed rows: indices `[100]` into `[100001, 128]` -/

def padK (e : FVec F S100000x128 .f32) : FVec F S100001x128 .f32 :=
  concatenate S100001x128 0 [⟨S100000x128, e⟩, ⟨S1x128, (broadcastInDim S1x128 ![] bcast_S_S1x128 (constant S_ .f32 0x00000000#32))⟩]
    concatenates_S100000x128_S1x128_S100001x128_d0
/-- The seed indices `[1, 100]` laid out as `[100]`. -/
def flatSeeds (a0 : IVec S1x100 32) : IVec S100 32 := fun i => shapeCast S100 a0 shapeCasts_S1x100_S100 i
def wrapSeeds (s : IVec S100 32) : IVec S100 32 :=
  select (cmpi .slt s (broadcastInDim S100 ![] bcast_S_S100 (constantI S_ 32 0#32)))
    (addi s (broadcastInDim S100 ![] bcast_S_S100 (constantI S_ 32 100001#32))) s
def colSeeds (s : IVec S100 32) : IVec S100x1 32 :=
  broadcastInDim S100x1 ![0] bcast_S100_S100x1_0 (wrapSeeds s)
def okSeeds (s : IVec S100 32) : IVec S100 1 :=
  Host.reduce IntOp.andi
    (andi (cmpi .sge (colSeeds s) (broadcastInDim S100x1 ![] bcast_S_S100x1 (constantI S_ 32 0#32)))
      (cmpi .sle (colSeeds s) (broadcastInDim S100x1 ![0, 1] bcast_S1x1_S100x1_0_1
        (broadcastInDim S1x1 ![1] bcast_S1_S1x1_1 (constantI S1 32 100000#32)))))
    (constantI S_ 1 1#1) reducesTo_S100x1_S100_d1 h_S_
def takeSeeds (p : FVec F S100001x128 .f32) (s : IVec S100 32) : FVec F S100x128 .f32 :=
  select (broadcastInDim S100x128 ![0] bcast_S100_S100x128_0 (okSeeds s))
    (Host.gather gather_S100001x128_S100x1_S100x128_1_0_n_n_0_1_1128 p (colSeeds s))
    (broadcastInDim S100x128 ![] bcast_S_S100x128 (constant S_ .f32 0x7FC00000#32))
/-- The sum of the hundred taken seed rows, as a `[1, 128]` row. -/
def seedSumK (p : FVec F S100001x128 .f32) (s : IVec S100 32) : FVec F S1x128 .f32 :=
  broadcastInDim S1x128 ![1] bcast_S128_S1x128_1
    (Host.reduceAdd (takeSeeds p s) (constant S_ .f32 0x00000000#32) reducesTo_S100x128_S128_d0 h_S_)
/-- The seeds' projection from the row of sums: the logistic of `(sum / count)·W1`. -/
def smK (ssum : FVec F S1x128 .f32) (a1 : FVec F S1x1 .f32) (a9 : FVec F S128x129 .f32) : FVec F S1x129 .f32 :=
  Host.divf (broadcastInDim S1x129 ![] bcast_S_S1x129 (constant S_ .f32 0x3F800000#32))
    (addf (broadcastInDim S1x129 ![] bcast_S_S1x129 (constant S_ .f32 0x3F800000#32))
      (Host.exp (Host.negf (Host.dotGeneral dot_S1x128_S128x129_S1x129_1_0_0_1_n_n none
        (Host.divf ssum (broadcastInDim S1x128 ![0, 1] bcast_S1x1_S1x128_0_1 a1)) a9))))

/-! ## The candidate rows: indices `[51200]` (the candidates padded with zeros) into `[100000, 128]` -/

def padCand (a2 : IVec S50000 32) : IVec S51200 32 :=
  pad S51200 ![0] ![1200] ![0] a2 (id (constantI S_ 32 0#32)) pads_S50000_S51200_012000 h_S_
def wrapCand (s : IVec S51200 32) : IVec S51200 32 :=
  select (cmpi .slt s (broadcastInDim S51200 ![] bcast_S_S51200 (constantI S_ 32 0#32)))
    (addi s (broadcastInDim S51200 ![] bcast_S_S51200 (constantI S_ 32 100000#32))) s
def colCand (s : IVec S51200 32) : IVec S51200x1 32 :=
  broadcastInDim S51200x1 ![0] bcast_S51200_S51200x1_0 (wrapCand s)
def okCand (s : IVec S51200 32) : IVec S51200 1 :=
  Host.reduce IntOp.andi
    (andi (cmpi .sge (colCand s) (broadcastInDim S51200x1 ![] bcast_S_S51200x1 (constantI S_ 32 0#32)))
      (cmpi .sle (colCand s) (broadcastInDim S51200x1 ![0, 1] bcast_S1x1_S51200x1_0_1
        (broadcastInDim S1x1 ![1] bcast_S1_S1x1_1 (constantI S1 32 99999#32)))))
    (constantI S_ 1 1#1) reducesTo_S51200x1_S51200_d1 h_S_
def takeCand (e : FVec F S100000x128 .f32) (s : IVec S51200 32) : FVec F S51200x128 .f32 :=
  select (broadcastInDim S51200x128 ![0] bcast_S51200_S51200x128_0 (okCand s))
    (Host.gather gather_S100000x128_S51200x1_S51200x128_1_0_n_n_0_1_1128 e (colCand s))
    (broadcastInDim S51200x128 ![] bcast_S_S51200x128 (constant S_ .f32 0x7FC00000#32))

end Cert.KernelIdeal.Stages

end
-- ==== Proof.HostEvalA.lean ====
/-
  The kernel program's buffers at the first kernel region's entry, read back through the three host stretches before it:
  the taken node rows, the mean of the taken neighbour rows, and every argument array as launched; and the arguments
  still as launched after the first region.
-/
import proofs.«421012_j32959579030378_1_alg».proof.Proof.Gen.KernelIdeal.Frame
import proofs.«421012_j32959579030378_1_alg».proof.Proof.KernelStages
import Idealize.ShloMosaic.Lib.StableHlo.Run
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A stretch of host operations leaves a buffer none of them writes as it was: no operation's result buffer is it. -/
local macro "keeps " "[" ops:ident,* "]" : tactic =>
  `(tactic| exact StableHlo.after_of_forall_not_mem _ _ (List.forall_iff_forall_mem.mp (by
      simp only [$[$ops:ident],*, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- Two stretches run one after the other are their concatenation run as one. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op ops ih => exact ih _

/-! ## Each stretch's results over any contents `V` of the buffers before it -/

set_option maxHeartbeats 2000000 in
/-- The node take: the rows gathered at the wrapped indices, the fill where an index is out of range. -/
theorem nodes_v0 (V : Valuation τ sig (Elt Ideal)) :
    (StableHlo.after (hostOps0 (F := Ideal)) V (Proc.devRef .tc main_v0) : FVec Ideal S100000x128 .f32)
      = Stages.takeNodes (F := Ideal) (V (Proc.devRef .tc main_arg5)) (V (Proc.devRef .tc main_arg3)) := by
  dsimp only [hostOps0]
  after_results
  simp only [TRef.toBuf, TRef.ofBuf, cast_eq]
  rfl

/-! ### The neighbour take, in three runs of its operations -/

/-- Its first eight operations leave the wrapped neighbour indices as a column. -/
theorem neigh_head_v5 (V : Valuation τ sig (Elt Ideal)) :
    (StableHlo.after (List.take 8 (hostOps0_1 (F := Ideal))) V (Proc.devRef .tc main_call1_v5) : IVec S100000x10x1 32)
      = Stages.colNeigh (V (Proc.devRef .tc main_arg6) : IVec S100000x10 32) := by
  dsimp only [hostOps0_1, List.take]
  after_results
  try simp only [TRef.toBuf, TRef.ofBuf, cast_eq]
  try rfl

theorem neigh_head_arg5 (V : Valuation τ sig (Elt Ideal)) :
    StableHlo.after (List.take 8 (hostOps0_1 (F := Ideal))) V (Proc.devRef .tc main_arg5) = V (Proc.devRef .tc main_arg5) := by
  keeps [hostOps0_1, List.take]

/-- Its next ten operations test the column of indices against the table's range, row by row. -/
theorem neigh_mid_v12 (V : Valuation τ sig (Elt Ideal)) :
    (StableHlo.after (List.take 10 (List.drop 8 (hostOps0_1 (F := Ideal)))) V (Proc.devRef .tc main_call1_v12) : IVec S100000x10 1)
      = Host.reduce IntOp.andi
          (andi (cmpi .sge (V (Proc.devRef .tc main_call1_v5) : IVec S100000x10x1 32)
              (broadcastInDim S100000x10x1 ![] bcast_S_S100000x10x1 (constantI S_ 32 0#32)))
            (cmpi .sle (V (Proc.devRef .tc main_call1_v5) : IVec S100000x10x1 32)
              (broadcastInDim S100000x10x1 ![0, 1, 2] bcast_S1x1x1_S100000x10x1_0_1_2
                (broadcastInDim S1x1x1 ![2] bcast_S1_S1x1x1_2 (constantI S1 32 99999#32)))))
          (constantI S_ 1 1#1) reducesTo_S100000x10x1_S100000x10_d2 h_S_ := by
  dsimp only [hostOps0_1, List.take, List.drop]
  after_results
  try simp only [TRef.toBuf, TRef.ofBuf, cast_eq]
  try rfl

theorem neigh_mid_v5 (V : Valuation τ sig (Elt Ideal)) :
    StableHlo.after (List.take 10 (List.drop 8 (hostOps0_1 (F := Ideal)))) V (Proc.devRef .tc main_call1_v5)
      = V (Proc.devRef .tc main_call1_v5) := by
  keeps [hostOps0_1, List.take, List.drop]

theorem neigh_mid_arg5 (V : Valuation τ sig (Elt Ideal)) :
    StableHlo.after (List.take 10 (List.drop 8 (hostOps0_1 (F := Ideal)))) V (Proc.devRef .tc main_arg5)
      = V (Proc.devRef .tc main_arg5) := by
  keeps [hostOps0_1, List.take, List.drop]

/-- Its last five operations gather the rows at the column of indices and put the fill where the range test fails. -/
theorem neigh_tail_v1 (V : Valuation τ sig (Elt Ideal)) :
    (StableHlo.after (List.drop 18 (hostOps0_1 (F := Ideal))) V (Proc.devRef .tc main_v1) : FVec Ideal S100000x10x128 .f32)
      = select (broadcastInDim S100000x10x128 ![0, 1] bcast_S100000x10_S100000x10x128_0_1 (V (Proc.devRef .tc main_call1_v12) : IVec S100000x10 1))
          (Host.gather gather_S100000x128_S100000x10x1_S100000x10x128_2_0_n_n_0_2_1128 (V (Proc.devRef .tc main_arg5) : FVec Ideal S100000x128 .f32) (V (Proc.devRef .tc main_call1_v5) : IVec S100000x10x1 32))
          (broadcastInDim S100000x10x128 ![] bcast_S_S100000x10x128 (constant (F := Ideal) S_ .f32 0x7FC00000#32)) := by
  dsimp only [hostOps0_1, List.drop]
  after_results
  try simp only [TRef.toBuf, TRef.ofBuf, cast_eq]
  try rfl

/-- The whole neighbour take: the three runs one after the other. -/
theorem neigh_v1 (V : Valuation τ sig (Elt Ideal)) :
    (StableHlo.after (hostOps0_1 (F := Ideal)) V (Proc.devRef .tc main_v1) : FVec Ideal S100000x10x128 .f32)
      = Stages.takeNeigh (F := Ideal) (V (Proc.devRef .tc main_arg5)) (V (Proc.devRef .tc main_arg6)) := by
  have hsplit : (hostOps0_1 (F := Ideal))
      = List.take 8 hostOps0_1 ++ (List.take 10 (List.drop 8 hostOps0_1) ++ List.drop 18 hostOps0_1) := rfl
  have h : StableHlo.after (hostOps0_1 (F := Ideal)) V
      = StableHlo.after (List.drop 18 hostOps0_1)
          (StableHlo.after (List.take 10 (List.drop 8 hostOps0_1)) (StableHlo.after (List.take 8 hostOps0_1) V)) :=
    (congrArg (fun l => StableHlo.after l V) hsplit).trans ((after_append _ _ V).trans (after_append _ _ _))
  rw [h, neigh_tail_v1, neigh_mid_v12, neigh_mid_v5, neigh_mid_arg5, neigh_head_v5, neigh_head_arg5]
  rfl

/-- The neighbour mean's stretch: the sum over the ten taken rows, divided by ten. -/
theorem nb_v4 (V : Valuation τ sig (Elt Ideal)) :
    (StableHlo.after (hostOps0_2 (F := Ideal)) V (Proc.devRef .tc main_v4) : FVec Ideal S100000x128 .f32)
      = Host.divf (F := Ideal) (Host.reduceAdd (F := Ideal) (V (Proc.devRef .tc main_v1) : FVec Ideal S100000x10x128 .f32)
            (constant (F := Ideal) S_ .f32 0x00000000#32) reducesTo_S100000x10x128_S100000x128_d1 h_S_)
          (broadcastInDim S100000x128 ![] bcast_S_S100000x128 (constant (F := Ideal) S_ .f32 0x41200000#32)) := by
  dsimp only [hostOps0_2]
  after_results

/-! ## At the first region's entry -/

theorem V3_v0 (c : Dev nD) : (V3 m ρ c main_v0 : FVec Ideal S100000x128 .f32)
    = Stages.takeNodes (F := Ideal) (m ((c : Thread nD τ).loc main_arg5)) (m ((c : Thread nD τ).loc main_arg3)) := by
  have h2 : W3 m ρ c (Proc.devRef .tc main_v0) = W2 m ρ c (Proc.devRef .tc main_v0) := by keeps [hostOps0_2]
  have h1 : W2 m ρ c (Proc.devRef .tc main_v0) = W1 m ρ c (Proc.devRef .tc main_v0) := by keeps [hostOps0_1]
  exact (h2.trans h1).trans (nodes_v0 (W0 m ρ c))

theorem V3_v4 (c : Dev nD) : (V3 m ρ c main_v4 : FVec Ideal S100000x128 .f32)
    = Stages.nbK (F := Ideal) (m ((c : Thread nD τ).loc main_arg5)) (m ((c : Thread nD τ).loc main_arg6)) := by
  have h1 : (W2 m ρ c (Proc.devRef .tc main_v1) : FVec Ideal S100000x10x128 .f32)
      = Stages.takeNeigh (F := Ideal) (W1 m ρ c (Proc.devRef .tc main_arg5)) (W1 m ρ c (Proc.devRef .tc main_arg6)) :=
    neigh_v1 (W1 m ρ c)
  have h5 : W1 m ρ c (Proc.devRef .tc main_arg5) = m ((c : Thread nD τ).loc main_arg5) := by keeps [hostOps0]
  have h6 : W1 m ρ c (Proc.devRef .tc main_arg6) = m ((c : Thread nD τ).loc main_arg6) := by keeps [hostOps0]
  refine (nb_v4 (W2 m ρ c)).trans ?_
  rw [h1, h5, h6]
  rfl

theorem V3_arg0 (c : Dev nD) : V3 m ρ c main_arg0 = m ((c : Thread nD τ).loc main_arg0) :=
  calc W3 m ρ c (Proc.devRef .tc main_arg0)
    _ = W2 m ρ c (Proc.devRef .tc main_arg0) := by keeps [hostOps0_2]
    _ = W1 m ρ c (Proc.devRef .tc main_arg0) := by keeps [hostOps0_1]
    _ = W0 m ρ c (Proc.devRef .tc main_arg0) := by keeps [hostOps0]
    _ = m ((c : Thread nD τ).loc main_arg0) := rfl

theorem V3_arg1 (c : Dev nD) : V3 m ρ c main_arg1 = m ((c : Thread nD τ).loc main_arg1) :=
  calc W3 m ρ c (Proc.devRef .tc main_arg1)
    _ = W2 m ρ c (Proc.devRef .tc main_arg1) := by keeps [hostOps0_2]
    _ = W1 m ρ c (Proc.devRef .tc main_arg1) := by keeps [hostOps0_1]
    _ = W0 m ρ c (Proc.devRef .tc main_arg1) := by keeps [hostOps0]
    _ = m ((c : Thread nD τ).loc main_arg1) := rfl

theorem V3_arg2 (c : Dev nD) : V3 m ρ c main_arg2 = m ((c : Thread nD τ).loc main_arg2) :=
  calc W3 m ρ c (Proc.devRef .tc main_arg2)
    _ = W2 m ρ c (Proc.devRef .tc main_arg2) := by keeps [hostOps0_2]
    _ = W1 m ρ c (Proc.devRef .tc main_arg2) := by keeps [hostOps0_1]
    _ = W0 m ρ c (Proc.devRef .tc main_arg2) := by keeps [hostOps0]
    _ = m ((c : Thread nD τ).loc main_arg2) := rfl

theorem V3_arg4 (c : Dev nD) : V3 m ρ c main_arg4 = m ((c : Thread nD τ).loc main_arg4) :=
  calc W3 m ρ c (Proc.devRef .tc main_arg4)
    _ = W2 m ρ c (Proc.devRef .tc main_arg4) := by keeps [hostOps0_2]
    _ = W1 m ρ c (Proc.devRef .tc main_arg4) := by keeps [hostOps0_1]
    _ = W0 m ρ c (Proc.devRef .tc main_arg4) := by keeps [hostOps0]
    _ = m ((c : Thread nD τ).loc main_arg4) := rfl

theorem V3_arg7 (c : Dev nD) : V3 m ρ c main_arg7 = m ((c : Thread nD τ).loc main_arg7) :=
  calc W3 m ρ c (Proc.devRef .tc main_arg7)
    _ = W2 m ρ c (Proc.devRef .tc main_arg7) := by keeps [hostOps0_2]
    _ = W1 m ρ c (Proc.devRef .tc main_arg7) := by keeps [hostOps0_1]
    _ = W0 m ρ c (Proc.devRef .tc main_arg7) := by keeps [hostOps0]
    _ = m ((c : Thread nD τ).loc main_arg7) := rfl

theorem V3_arg8 (c : Dev nD) : V3 m ρ c main_arg8 = m ((c : Thread nD τ).loc main_arg8) :=
  calc W3 m ρ c (Proc.devRef .tc main_arg8)
    _ = W2 m ρ c (Proc.devRef .tc main_arg8) := by keeps [hostOps0_2]
    _ = W1 m ρ c (Proc.devRef .tc main_arg8) := by keeps [hostOps0_1]
    _ = W0 m ρ c (Proc.devRef .tc main_arg8) := by keeps [hostOps0]
    _ = m ((c : Thread nD τ).loc main_arg8) := rfl

theorem V3_arg9 (c : Dev nD) : V3 m ρ c main_arg9 = m ((c : Thread nD τ).loc main_arg9) :=
  calc W3 m ρ c (Proc.devRef .tc main_arg9)
    _ = W2 m ρ c (Proc.devRef .tc main_arg9) := by keeps [hostOps0_2]
    _ = W1 m ρ c (Proc.devRef .tc main_arg9) := by keeps [hostOps0_1]
    _ = W0 m ρ c (Proc.devRef .tc main_arg9) := by keeps [hostOps0]
    _ = m ((c : Thread nD τ).loc main_arg9) := rfl

theorem V3_arg11 (c : Dev nD) : V3 m ρ c main_arg11 = m ((c : Thread nD τ).loc main_arg11) :=
  calc W3 m ρ c (Proc.devRef .tc main_arg11)
    _ = W2 m ρ c (Proc.devRef .tc main_arg11) := by keeps [hostOps0_2]
    _ = W1 m ρ c (Proc.devRef .tc main_arg11) := by keeps [hostOps0_1]
    _ = W0 m ρ c (Proc.devRef .tc main_arg11) := by keeps [hostOps0]
    _ = m ((c : Thread nD τ).loc main_arg11) := rfl

/-! ## After the first region: every argument still as launched; the region's output array is what its pipeline leaves -/

theorem W4_arg0 (c : Dev nD) : W4 m ρ c (Proc.devRef .tc main_arg0) = m ((c : Thread nD τ).loc main_arg0) :=
  (W4_of_ne m ρ c main_arg0 (by decide)).trans (V3_arg0 m ρ c)

theorem W4_arg1 (c : Dev nD) : W4 m ρ c (Proc.devRef .tc main_arg1) = m ((c : Thread nD τ).loc main_arg1) :=
  (W4_of_ne m ρ c main_arg1 (by decide)).trans (V3_arg1 m ρ c)

theorem W4_arg2 (c : Dev nD) : W4 m ρ c (Proc.devRef .tc main_arg2) = m ((c : Thread nD τ).loc main_arg2) :=
  (W4_of_ne m ρ c main_arg2 (by decide)).trans (V3_arg2 m ρ c)

theorem W4_arg9 (c : Dev nD) : W4 m ρ c (Proc.devRef .tc main_arg9) = m ((c : Thread nD τ).loc main_arg9) :=
  (W4_of_ne m ρ c main_arg9 (by decide)).trans (V3_arg9 m ρ c)

theorem W4_arg11 (c : Dev nD) : W4 m ρ c (Proc.devRef .tc main_arg11) = m ((c : Thread nD τ).loc main_arg11) :=
  (W4_of_ne m ρ c main_arg11 (by decide)).trans (V3_arg11 m ρ c)

theorem W4_v5 (c : Dev nD) : W4 m ρ c (Proc.devRef .tc main_v5) = (dat0 (V3 m ρ) c).arrAt 5 cfg0.N := W4_arr m ρ c 5

end Cert.KernelIdeal.Val

end
-- ==== Proof.HostEvalB.lean ====
/-
  The kernel program's buffers at the second kernel region's entry, read back through the five host stretches between the
  regions over what the first region left (`W4`): the seeds' projected row, the taken candidate rows, `W3` as the first
  region left it; and the result buffer as the slice of what the second region leaves.
-/
import proofs.«421012_j32959579030378_1_alg».proof.Proof.Gen.KernelIdeal.Frame
import proofs.«421012_j32959579030378_1_alg».proof.Proof.KernelStages
import Idealize.ShloMosaic.Lib.StableHlo.Run
import Idealize.ShloMosaic.PureOps.Ideal

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch writes holds after the stretch what it held before. -/
local macro "carried " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches

variable (V : Valuation τ sig (Elt Ideal))

/-! ## What each stretch writes, over any contents `V` before it -/

theorem A1_v7 : (StableHlo.after hostOps1 V (Proc.devRef .tc main_v7) : FVec Ideal S100001x128 .f32)
    = Stages.padK (F := Ideal) (V (Proc.devRef .tc main_v5)) := by
  dsimp only [hostOps1]
  after_results
  rfl

theorem A1_v8 : (StableHlo.after hostOps1 V (Proc.devRef .tc main_v8) : IVec S100 32)
    = Stages.flatSeeds (V (Proc.devRef .tc main_arg0)) := by
  dsimp only [hostOps1]
  after_results
  rfl

set_option maxHeartbeats 2000000 in
theorem A11_v9 : (StableHlo.after hostOps1_1 V (Proc.devRef .tc main_v9) : FVec Ideal S100x128 .f32)
    = Stages.takeSeeds (F := Ideal) (V (Proc.devRef .tc main_v7)) (V (Proc.devRef .tc main_v8)) := by
  dsimp only [hostOps1_1]
  after_results
  simp only [TRef.toBuf, TRef.ofBuf, cast_eq]
  rfl

set_option maxHeartbeats 2000000 in
theorem A12_v20 : (StableHlo.after hostOps1_2 V (Proc.devRef .tc main_v20) : FVec Ideal S1x129 .f32)
    = Stages.smK (F := Ideal)
        (broadcastInDim S1x128 ![1] bcast_S128_S1x128_1
          (Host.reduceAdd (V (Proc.devRef .tc main_v9)) (constant S_ .f32 0x00000000#32) reducesTo_S100x128_S128_d0 h_S_))
        (V (Proc.devRef .tc main_arg1)) (V (Proc.devRef .tc main_arg9)) := by
  dsimp only [hostOps1_2]
  after_results
  rfl

theorem A12_c : (StableHlo.after hostOps1_2 V (Proc.devRef .tc main_c) : IVec S_ 32) = constantI S_ 32 0#32 := by
  dsimp only [hostOps1_2]
  after_results

theorem A13_v21 (hc : (V (Proc.devRef .tc main_c) : IVec S_ 32) = constantI S_ 32 0#32) :
    (StableHlo.after hostOps1_3 V (Proc.devRef .tc main_v21) : IVec S51200 32)
    = Stages.padCand (V (Proc.devRef .tc main_arg2)) := by
  dsimp only [hostOps1_3]
  after_results
  simp only [TRef.toBuf, TRef.ofBuf, cast_eq]
  rw [hc]
  rfl

set_option maxHeartbeats 2000000 in
theorem A14_v22 : (StableHlo.after hostOps1_4 V (Proc.devRef .tc main_v22) : FVec Ideal S51200x128 .f32)
    = Stages.takeCand (F := Ideal) (V (Proc.devRef .tc main_v5)) (V (Proc.devRef .tc main_v21)) := by
  dsimp only [hostOps1_4]
  after_results
  simp only [TRef.toBuf, TRef.ofBuf, cast_eq]
  rfl

/-! ## What each stretch leaves alone -/

theorem T1_arg1 : StableHlo.after hostOps1 V (Proc.devRef .tc main_arg1) = V (Proc.devRef .tc main_arg1) := by
  carried hostOps1

theorem T1_arg9 : StableHlo.after hostOps1 V (Proc.devRef .tc main_arg9) = V (Proc.devRef .tc main_arg9) := by
  carried hostOps1

theorem T1_v5 : StableHlo.after hostOps1 V (Proc.devRef .tc main_v5) = V (Proc.devRef .tc main_v5) := by
  carried hostOps1

theorem T1_arg2 : StableHlo.after hostOps1 V (Proc.devRef .tc main_arg2) = V (Proc.devRef .tc main_arg2) := by
  carried hostOps1

theorem T1_arg11 : StableHlo.after hostOps1 V (Proc.devRef .tc main_arg11) = V (Proc.devRef .tc main_arg11) := by
  carried hostOps1

theorem T11_arg1 : StableHlo.after hostOps1_1 V (Proc.devRef .tc main_arg1) = V (Proc.devRef .tc main_arg1) := by
  carried hostOps1_1

theorem T11_arg9 : StableHlo.after hostOps1_1 V (Proc.devRef .tc main_arg9) = V (Proc.devRef .tc main_arg9) := by
  carried hostOps1_1

theorem T11_v5 : StableHlo.after hostOps1_1 V (Proc.devRef .tc main_v5) = V (Proc.devRef .tc main_v5) := by
  carried hostOps1_1

theorem T11_arg2 : StableHlo.after hostOps1_1 V (Proc.devRef .tc main_arg2) = V (Proc.devRef .tc main_arg2) := by
  carried hostOps1_1

theorem T11_arg11 : StableHlo.after hostOps1_1 V (Proc.devRef .tc main_arg11) = V (Proc.devRef .tc main_arg11) := by
  carried hostOps1_1

theorem T12_v5 : StableHlo.after hostOps1_2 V (Proc.devRef .tc main_v5) = V (Proc.devRef .tc main_v5) := by
  carried hostOps1_2

theorem T12_arg2 : StableHlo.after hostOps1_2 V (Proc.devRef .tc main_arg2) = V (Proc.devRef .tc main_arg2) := by
  carried hostOps1_2

theorem T12_arg11 : StableHlo.after hostOps1_2 V (Proc.devRef .tc main_arg11) = V (Proc.devRef .tc main_arg11) := by
  carried hostOps1_2

theorem T13_v20 : StableHlo.after hostOps1_3 V (Proc.devRef .tc main_v20) = V (Proc.devRef .tc main_v20) := by
  carried hostOps1_3

theorem T13_v5 : StableHlo.after hostOps1_3 V (Proc.devRef .tc main_v5) = V (Proc.devRef .tc main_v5) := by
  carried hostOps1_3

theorem T13_arg11 : StableHlo.after hostOps1_3 V (Proc.devRef .tc main_arg11) = V (Proc.devRef .tc main_arg11) := by
  carried hostOps1_3

theorem T14_v20 : StableHlo.after hostOps1_4 V (Proc.devRef .tc main_v20) = V (Proc.devRef .tc main_v20) := by
  carried hostOps1_4

theorem T14_arg11 : StableHlo.after hostOps1_4 V (Proc.devRef .tc main_arg11) = V (Proc.devRef .tc main_arg11) := by
  carried hostOps1_4

end Stretches

/-! ## At the second region's entry, over what the first region left (`W4`) -/

theorem V9_v20 (c : Dev nD) : (V9 m ρ c main_v20 : FVec Ideal S1x129 .f32)
    = Stages.smK (F := Ideal)
        (Stages.seedSumK (Stages.padK (W4 m ρ c (Proc.devRef .tc main_v5))) (Stages.flatSeeds (W4 m ρ c (Proc.devRef .tc main_arg0))))
        (W4 m ρ c (Proc.devRef .tc main_arg1)) (W4 m ρ c (Proc.devRef .tc main_arg9)) := by
  have e9 : W9 m ρ c (Proc.devRef .tc main_v20) = W8 m ρ c (Proc.devRef .tc main_v20) := T14_v20 (W8 m ρ c)
  have e8 : W8 m ρ c (Proc.devRef .tc main_v20) = W7 m ρ c (Proc.devRef .tc main_v20) := T13_v20 (W7 m ρ c)
  have e7 : (W7 m ρ c (Proc.devRef .tc main_v20) : FVec Ideal S1x129 .f32)
      = Stages.smK (F := Ideal)
          (broadcastInDim S1x128 ![1] bcast_S128_S1x128_1
            (Host.reduceAdd (W6 m ρ c (Proc.devRef .tc main_v9)) (constant S_ .f32 0x00000000#32) reducesTo_S100x128_S128_d0 h_S_))
          (W6 m ρ c (Proc.devRef .tc main_arg1)) (W6 m ρ c (Proc.devRef .tc main_arg9)) := A12_v20 (W6 m ρ c)
  have h9 : (W6 m ρ c (Proc.devRef .tc main_v9) : FVec Ideal S100x128 .f32)
      = Stages.takeSeeds (F := Ideal) (W5 m ρ c (Proc.devRef .tc main_v7)) (W5 m ρ c (Proc.devRef .tc main_v8)) := A11_v9 (W5 m ρ c)
  have h7 : (W5 m ρ c (Proc.devRef .tc main_v7) : FVec Ideal S100001x128 .f32)
      = Stages.padK (F := Ideal) (W4 m ρ c (Proc.devRef .tc main_v5)) := A1_v7 (W4 m ρ c)
  have h8 : (W5 m ρ c (Proc.devRef .tc main_v8) : IVec S100 32)
      = Stages.flatSeeds (W4 m ρ c (Proc.devRef .tc main_arg0)) := A1_v8 (W4 m ρ c)
  have a1 : W6 m ρ c (Proc.devRef .tc main_arg1) = W4 m ρ c (Proc.devRef .tc main_arg1) :=
    (T11_arg1 (W5 m ρ c)).trans (T1_arg1 (W4 m ρ c))
  have a9 : W6 m ρ c (Proc.devRef .tc main_arg9) = W4 m ρ c (Proc.devRef .tc main_arg9) :=
    (T11_arg9 (W5 m ρ c)).trans (T1_arg9 (W4 m ρ c))
  refine (e9.trans e8).trans (e7.trans ?_)
  rw [h9, h7, h8, a1, a9]
  rfl

theorem V9_v22 (c : Dev nD) : (V9 m ρ c main_v22 : FVec Ideal S51200x128 .f32)
    = Stages.takeCand (F := Ideal) (W4 m ρ c (Proc.devRef .tc main_v5)) (Stages.padCand (W4 m ρ c (Proc.devRef .tc main_arg2))) := by
  have e9 : (W9 m ρ c (Proc.devRef .tc main_v22) : FVec Ideal S51200x128 .f32)
      = Stages.takeCand (F := Ideal) (W8 m ρ c (Proc.devRef .tc main_v5)) (W8 m ρ c (Proc.devRef .tc main_v21)) := A14_v22 (W8 m ρ c)
  have h21 : (W8 m ρ c (Proc.devRef .tc main_v21) : IVec S51200 32)
      = Stages.padCand (W7 m ρ c (Proc.devRef .tc main_arg2)) := A13_v21 (W7 m ρ c) (A12_c (W6 m ρ c))
  have a5 : W8 m ρ c (Proc.devRef .tc main_v5) = W4 m ρ c (Proc.devRef .tc main_v5) :=
    (T13_v5 (W7 m ρ c)).trans ((T12_v5 (W6 m ρ c)).trans ((T11_v5 (W5 m ρ c)).trans (T1_v5 (W4 m ρ c))))
  have a2 : W7 m ρ c (Proc.devRef .tc main_arg2) = W4 m ρ c (Proc.devRef .tc main_arg2) :=
    (T12_arg2 (W6 m ρ c)).trans ((T11_arg2 (W5 m ρ c)).trans (T1_arg2 (W4 m ρ c)))
  refine e9.trans ?_
  rw [h21, a5, a2]

theorem V9_arg11 (c : Dev nD) : V9 m ρ c main_arg11 = W4 m ρ c (Proc.devRef .tc main_arg11) :=
  (T14_arg11 (W8 m ρ c)).trans ((T13_arg11 (W7 m ρ c)).trans ((T12_arg11 (W6 m ρ c)).trans
    ((T11_arg11 (W5 m ρ c)).trans (T1_arg11 (W4 m ρ c)))))

/-! ## The result buffer: the slice of the second region's output array -/

theorem W10_v23 (c : Dev nD) : W10 m ρ c (Proc.devRef .tc main_v23) = (dat1 (V9 m ρ) c).arrAt 3 cfg1.N := W10_arr m ρ c 3

theorem W11_v24 (c : Dev nD) : (W11 m ρ c (Proc.devRef .tc main_v24) : FVec Ideal S50000 .f32)
    = extractStridedSlice S50000 ![0] (W10 m ρ c (Proc.devRef .tc main_v23)) slices_S51200_S50000_0 := by
  dsimp only [W11, hostOps2]
  after_results

end Cert.KernelIdeal.Val

end
-- ==== Proof.HostEval.lean ====
/-
  The kernel program's buffers at each kernel region's entry, and its result buffer, read back through the host stretches.
-/
import proofs.«421012_j32959579030378_1_alg».proof.Proof.HostEvalA
import proofs.«421012_j32959579030378_1_alg».proof.Proof.HostEvalB
-- ==== Proof.RefStages.lean ====
/-
  The reference's @main as a composition of a few whole-array stages, each a function of the arrays it reads:
  the gathered rows `xOf`, the mean of ten gathered neighbour rows `nbOf`, the embedding
  `embOf x nb mask Ws Wn = max (x·Ws + nb·Wn) 0 · mask`, the embedding with a zero row appended `padOf`, the sum of the
  hundred seed rows `seedSumOf`, the seeds' logistic projection `smOf`, and the score
  `qOf e cand W3 sm = (1 − Σ_d logistic(e[cand]·W3)_d · sm_d) · 10⁵`. The reference's result is their composition, by unfolding.
-/
import proofs.«421012_j32959579030378_1_alg».proof.Proof.Gen.ReferenceIdeal.Run

set_option maxRecDepth 8192

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Numpy's index wrap: a negative index counts from the end (`i + n`), any other is itself. -/
def wrapNodes (a3 : IVec S100000 32) : IVec S100000 32 :=
  select (cmpi .slt a3 (broadcastInDim S100000 ![] bcast_S_S100000 (constantI S_ 32 0#32)))
    (addi a3 (broadcastInDim S100000 ![] bcast_S_S100000 (constantI S_ 32 100000#32))) a3
def wrapNeigh (a6 : IVec S100000x10 32) : IVec S100000x10 32 :=
  select (cmpi .slt a6 (broadcastInDim S100000x10 ![] bcast_S_S100000x10 (constantI S_ 32 0#32)))
    (addi a6 (broadcastInDim S100000x10 ![] bcast_S_S100000x10 (constantI S_ 32 100000#32))) a6
def wrapCand (a2 : IVec S50000 32) : IVec S50000 32 :=
  select (cmpi .slt a2 (broadcastInDim S50000 ![] bcast_S_S50000 (constantI S_ 32 0#32)))
    (addi a2 (broadcastInDim S50000 ![] bcast_S_S50000 (constantI S_ 32 100000#32))) a2
def wrapSeeds (a0 : IVec S1x100 32) : IVec S1x100 32 :=
  select (cmpi .slt a0 (broadcastInDim S1x100 ![] bcast_S_S1x100 (constantI S_ 32 0#32)))
    (addi a0 (broadcastInDim S1x100 ![] bcast_S_S1x100 (constantI S_ 32 100001#32))) a0

/-- The rows of the feature table the node list names. -/
def xOf (a5 : FVec F S100000x128 .f32) (a3 : IVec S100000 32) : FVec F S100000x128 .f32 :=
  Host.gather gather_S100000x128_S100000x1_S100000x128_1_0_n_n_0_1_1128 a5
    (broadcastInDim S100000x1 ![0] bcast_S100000_S100000x1_0 (wrapNodes a3))

/-- The mean of the ten neighbour rows of each node. -/
def nbOf (a5 : FVec F S100000x128 .f32) (a6 : IVec S100000x10 32) : FVec F S100000x128 .f32 :=
  Host.divf (Host.reduceAdd (Host.gather gather_S100000x128_S100000x10x1_S100000x10x128_2_0_n_n_0_2_1128 a5
      (broadcastInDim S100000x10x1 ![0, 1] bcast_S100000x10_S100000x10x1_0_1 (wrapNeigh a6)))
      (constant S_ .f32 0x00000000#32) reducesTo_S100000x10x128_S100000x128_d1 h_S_)
    (broadcastInDim S100000x128 ![] bcast_S_S100000x128 (constant S_ .f32 0x41200000#32))

/-- The embedding: `max (x·Ws + nb·Wn) 0`, each row scaled by its mask entry. -/
def embOf (x nb : FVec F S100000x128 .f32) (a4 : FVec F S100000x1 .f32) (a7 a8 : FVec F S128x128 .f32) : FVec F S100000x128 .f32 :=
  mulf (maximumf (addf (Host.dotGeneral dot_S100000x128_S128x128_S100000x128_1_0_0_1_n_n none x a7)
      (Host.dotGeneral dot_S100000x128_S128x128_S100000x128_1_0_0_1_n_n none nb a8))
      (broadcastInDim S100000x128 ![] bcast_S_S100000x128 (constant S_ .f32 0x00000000#32)))
    (broadcastInDim S100000x128 ![0, 1] bcast_S100000x1_S100000x128_0_1 a4)

/-- The embedding with one zero row appended. -/
def padOf (e : FVec F S100000x128 .f32) : FVec F S100001x128 .f32 :=
  concatenate S100001x128 0 [⟨S100000x128, e⟩, ⟨S1x128, (broadcastInDim S1x128 ![] bcast_S_S1x128 (constant S_ .f32 0x00000000#32))⟩]
    concatenates_S100000x128_S1x128_S100001x128_d0

/-- The sum of the hundred seed rows of the padded embedding. -/
def seedSumOf (p : FVec F S100001x128 .f32) (a0 : IVec S1x100 32) : FVec F S1x128 .f32 :=
  Host.reduceAdd (Host.gather gather_S100001x128_S1x100x1_S1x100x128_2_0_n_n_0_2_1128 p
      (broadcastInDim S1x100x1 ![0, 1] bcast_S1x100_S1x100x1_0_1 (wrapSeeds a0)))
    (constant S_ .f32 0x00000000#32) reducesTo_S1x100x128_S1x128_d1 h_S_

/-- The seeds' projection: the logistic of `(seed sum / count)·W1`. -/
def smOf (ssum : FVec F S1x128 .f32) (a1 : FVec F S1x1 .f32) (a9 : FVec F S128x129 .f32) : FVec F S1x129 .f32 :=
  Host.divf (broadcastInDim S1x129 ![] bcast_S_S1x129 (constant S_ .f32 0x3F800000#32))
    (addf (broadcastInDim S1x129 ![] bcast_S_S1x129 (constant S_ .f32 0x3F800000#32))
      (Host.exp (Host.negf (Host.dotGeneral dot_S1x128_S128x129_S1x129_1_0_0_1_n_n none
        (Host.divf ssum (broadcastInDim S1x128 ![0, 1] bcast_S1x1_S1x128_0_1 a1)) a9))))

/-- The candidates' scores: `(1 − Σ_d logistic(e[cand]·W3)_d · sm_d) · 10⁵`. -/
def qOf (e : FVec F S100000x128 .f32) (a2 : IVec S50000 32) (a11 : FVec F S128x129 .f32) (sm : FVec F S1x129 .f32) : FVec F S50000 .f32 :=
  mulf (subf (broadcastInDim S50000 ![] bcast_S_S50000 (constant S_ .f32 0x3F800000#32))
      (Host.reduceAdd (mulf
          (Host.divf (broadcastInDim S50000x129 ![] bcast_S_S50000x129 (constant S_ .f32 0x3F800000#32))
            (addf (broadcastInDim S50000x129 ![] bcast_S_S50000x129 (constant S_ .f32 0x3F800000#32))
              (Host.exp (Host.negf (Host.dotGeneral dot_S50000x128_S128x129_S50000x129_1_0_0_1_n_n none
                (Host.gather gather_S100000x128_S50000x1_S50000x128_1_0_n_n_0_1_1128 e
                  (broadcastInDim S50000x1 ![0] bcast_S50000_S50000x1_0 (wrapCand a2))) a11)))))
          (broadcastInDim S50000x129 ![0, 1] bcast_S1x129_S50000x129_0_1 sm))
        (constant S_ .f32 0x00000000#32) reducesTo_S50000x129_S50000_d1 h_S_))
    (broadcastInDim S50000 ![] bcast_S_S50000 (constant S_ .f32 0x47C35000#32))

/-- The whole reference as one function of the twelve argument arrays. -/
def refOf (a0 : IVec S1x100 32) (a1 : FVec F S1x1 .f32) (a2 : IVec S50000 32) (a3 : IVec S100000 32) (a4 : FVec F S100000x1 .f32)
    (a5 : FVec F S100000x128 .f32) (a6 : IVec S100000x10 32) (a7 a8 : FVec F S128x128 .f32) (a9 a11 : FVec F S128x129 .f32) : FVec F S50000 .f32 :=
  qOf (embOf (xOf a5 a3) (nbOf a5 a6) a4 a7 a8) a2 a11
    (smOf (seedSumOf (padOf (embOf (xOf a5 a3) (nbOf a5 a6) a4 a7 a8)) a0) a1 a9)

/-- The reference run's result term is that composition. -/
theorem res_eq (m : (ℓ : Loc nD τ sig) → Buf (Elt F) ℓ) (c : Dev nD) :
    Value.res_main_v73 m c = refOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg11)) := by
  unfold Value.res_main_v73 refOf qOf smOf seedSumOf padOf embOf nbOf xOf wrapNodes wrapNeigh wrapCand wrapSeeds
  rfl

end Cert.ReferenceIdeal.Stages

end
-- ==== Proof.Fill.lean ====
/-
  In-range indices make a take a plain gather. An index array is IN RANGE of `n` rows when every entry, read signed, lies in
  `[0, n)`. Then numpy's wrap leaves each index alone, the take's range test is true everywhere, and the select that
  would put the fill keeps the gathered row: the kernel program's takes are the reference's gathers. The four range
  facts themselves are read off the precondition's integer conjuncts.
-/
import proofs.«421012_j32959579030378_1_alg».proof.Proof.KernelStages
import proofs.«421012_j32959579030378_1_alg».proof.Proof.RefStages
import proofs.«421012_j32959579030378_1_alg».proof.Pre_finite_inputs
import Idealize.ShloMosaic.Lib.StableHlo.Predicate
import Idealize.ShloMosaic.Lib.ReduceAll
import Idealize.ShloMosaic.PureOps.Ideal

set_option maxRecDepth 16384

noncomputable section

namespace Cert.Fill

open Idealize.ShloMosaic

/-- Every entry of the index array, read signed, is a row number of a table of `n` rows. -/
def InRange {s : Shape} (n : Nat) (a : IVec s 32) : Prop := ∀ i, 0 ≤ (a i).toInt ∧ (a i).toInt < (n : Int)

variable {F : FTy → Type} [FloatOps F]

/-! ## Words -/

/-- The wrap of a word that is not negative is the word. -/
theorem wrap_word (x n : BitVec 32) (h0 : 0 ≤ x.toInt) :
    Scalar.select (IntOp.cmpi .slt x 0#32) (IntOp.addi x n) x = x := by
  have hz : (0#32 : BitVec 32).toInt = 0 := by decide
  have hc : IntOp.cmpi .slt x 0#32 = 0#1 := by
    unfold IntOp.cmpi
    simp only [BitVec.slt, hz]
    rw [decide_eq_false (by omega)]; rfl
  rw [hc]; unfold Scalar.select; exact if_neg (by decide)

/-- The range test of a word in `[0, m]` is true. -/
theorem ok_word (x m : BitVec 32) (h0 : 0 ≤ x.toInt) (h1 : x.toInt ≤ m.toInt) :
    IntOp.andi (IntOp.cmpi .sge x 0#32) (IntOp.cmpi .sle x m) = 1#1 := by
  have hz : (0#32 : BitVec 32).toInt = 0 := by decide
  have ha : IntOp.cmpi .sge x 0#32 = 1#1 := by
    unfold IntOp.cmpi
    simp only [BitVec.sle, hz]
    rw [decide_eq_true h0]; rfl
  have hb : IntOp.cmpi .sle x m = 1#1 := by
    unfold IntOp.cmpi
    simp only [BitVec.sle]
    rw [decide_eq_true h1]; rfl
  rw [ha, hb]; decide

/-! ## Arrays -/

/-- Every entry of a broadcast is an entry of its operand. -/
theorem bcast_forall {s t : Shape} {α : Type} (P : α → Prop) (dims : Fin s.rank → Fin t.rank) (hb : s.BroadcastsInDim t dims)
    (x : s.Idx → α) (hx : ∀ k, P (x k)) (j : t.Idx) : P (broadcastInDim t dims hb x j) := hx _

/-- The wrap of an index array in range is the array. -/
theorem wrap_eq {s : Shape} (n : Nat) (a z nn : IVec s 32) (h : InRange n a) (hz : ∀ i, z i = 0#32) :
    select (cmpi .slt a z) (addi a nn) a = a := by
  funext i
  show Scalar.select (IntOp.cmpi .slt (a i) (z i)) (IntOp.addi (a i) (nn i)) (a i) = a i
  rw [hz i]; exact wrap_word _ _ (h i).1

/-- The range test of an array whose entries all lie in `[0, m]` is true everywhere. -/
theorem ok_all {s : Shape} (c z mm : IVec s 32) (m : BitVec 32) (hz : ∀ i, z i = 0#32) (hm : ∀ i, mm i = m)
    (hc : ∀ i, 0 ≤ (c i).toInt ∧ (c i).toInt ≤ m.toInt) (i : s.Idx) :
    andi (cmpi .sge c z) (cmpi .sle c mm) i = 1#1 := by
  show IntOp.andi (IntOp.cmpi .sge (c i) (z i)) (IntOp.cmpi .sle (c i) (mm i)) = 1#1
  rw [hz i, hm i]; exact ok_word _ _ (hc i).1 (hc i).2

/-- A left fold by `and` from 1 over 1s is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi (1#1 : BitVec 1) 1#1 = 1#1 := by decide
    rw [List.foldl_cons, h a List.mem_cons_self, e]
    exact foldl_andi_one f l (fun n hn => h n (List.mem_cons_of_mem _ hn))

/-- A reduce by `and` from 1 of an array of 1s is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ (fun i _ => hx i)

/-- A select whose mask is 1 everywhere is its first branch. -/
theorem select_all_one {s : Shape} {α : Type} (c : IVec s 1) (a b : s.Idx → α) (hc : ∀ i, c i = 1#1) : select c a b = a := by
  funext i
  show Scalar.select (c i) (a i) (b i) = a i
  rw [hc i]; unfold Scalar.select; exact if_pos rfl

/-- The node rows' take is the gather of its own column of indices. -/
theorem takeNodes_gather (a5 : FVec F Cert.KernelIdeal.S100000x128 .f32) (a3 : IVec Cert.KernelIdeal.S100000 32) (h : InRange 100000 a3) :
    Cert.KernelIdeal.Stages.takeNodes a5 a3
      = Host.gather Cert.KernelIdeal.gather_S100000x128_S100000x1_S100000x128_1_0_n_n_0_1_1128 a5 (Cert.KernelIdeal.Stages.colNodes a3) := by
  have hw : Cert.KernelIdeal.Stages.wrapNodes a3 = a3 := wrap_eq 100000 a3 _ _ h (fun _ => rfl)
  have hm : (99999#32 : BitVec 32).toInt = 99999 := by decide
  unfold Cert.KernelIdeal.Stages.takeNodes
  refine select_all_one _ _ _ (bcast_forall (· = 1#1) _ _ _ fun j => ?_)
  unfold Cert.KernelIdeal.Stages.okNodes
  refine reduce_andi_one _ _ _ _ (fun _ => rfl) (ok_all _ _ _ 99999#32 (fun _ => rfl) (fun _ => rfl) ?_) j
  unfold Cert.KernelIdeal.Stages.colNodes
  rw [hw]
  refine bcast_forall (fun w : BitVec 32 => 0 ≤ w.toInt ∧ w.toInt ≤ (99999#32 : BitVec 32).toInt) _ _ _ fun k => ?_
  have := h k
  rw [hm]; omega

/-- The node rows: with the node list in range the kernel program's take is the reference's gather. -/
theorem takeNodes_eq (a5 : FVec F Cert.KernelIdeal.S100000x128 .f32) (a3 : IVec Cert.KernelIdeal.S100000 32) (h : InRange 100000 a3) :
    Cert.KernelIdeal.Stages.takeNodes a5 a3 = Cert.ReferenceIdeal.Stages.xOf a5 a3 := by
  rw [takeNodes_gather a5 a3 h]
  rfl

/-- The neighbour rows' take is the gather of its own column of indices. -/
theorem takeNeigh_gather (a5 : FVec F Cert.KernelIdeal.S100000x128 .f32) (a6 : IVec Cert.KernelIdeal.S100000x10 32) (h : InRange 100000 a6) :
    Cert.KernelIdeal.Stages.takeNeigh a5 a6
      = Host.gather Cert.KernelIdeal.gather_S100000x128_S100000x10x1_S100000x10x128_2_0_n_n_0_2_1128 a5 (Cert.KernelIdeal.Stages.colNeigh a6) := by
  have hw : Cert.KernelIdeal.Stages.wrapNeigh a6 = a6 := wrap_eq 100000 a6 _ _ h (fun _ => rfl)
  have hm : (99999#32 : BitVec 32).toInt = 99999 := by decide
  unfold Cert.KernelIdeal.Stages.takeNeigh
  refine select_all_one _ _ _ (bcast_forall (· = 1#1) _ _ _ fun j => ?_)
  unfold Cert.KernelIdeal.Stages.okNeigh
  refine reduce_andi_one _ _ _ _ (fun _ => rfl) (ok_all _ _ _ 99999#32 (fun _ => rfl) (fun _ => rfl) ?_) j
  unfold Cert.KernelIdeal.Stages.colNeigh
  rw [hw]
  refine bcast_forall (fun w : BitVec 32 => 0 ≤ w.toInt ∧ w.toInt ≤ (99999#32 : BitVec 32).toInt) _ _ _ fun k => ?_
  have := h k
  rw [hm]; omega

/-- The neighbour mean: with the neighbour table in range the kernel program's is the reference's. -/
theorem nbK_eq (a5 : FVec F Cert.KernelIdeal.S100000x128 .f32) (a6 : IVec Cert.KernelIdeal.S100000x10 32) (h : InRange 100000 a6) :
    Cert.KernelIdeal.Stages.nbK a5 a6 = Cert.ReferenceIdeal.Stages.nbOf a5 a6 := by
  unfold Cert.KernelIdeal.Stages.nbK
  rw [takeNeigh_gather a5 a6 h]
  rfl

/-- The seed rows: with the seed indices in range of the padded table's 100001 rows the take is its gather. -/
theorem takeSeeds_eq (p : FVec F Cert.KernelIdeal.S100001x128 .f32) (s : IVec Cert.KernelIdeal.S100 32) (h : InRange 100001 s) :
    Cert.KernelIdeal.Stages.takeSeeds p s
      = Host.gather Cert.KernelIdeal.gather_S100001x128_S100x1_S100x128_1_0_n_n_0_1_1128 p (Cert.KernelIdeal.Stages.colSeeds s) := by
  have hw : Cert.KernelIdeal.Stages.wrapSeeds s = s := wrap_eq 100001 s _ _ h (fun _ => rfl)
  have hm : (100000#32 : BitVec 32).toInt = 100000 := by decide
  unfold Cert.KernelIdeal.Stages.takeSeeds
  refine select_all_one _ _ _ (bcast_forall (· = 1#1) _ _ _ fun j => ?_)
  unfold Cert.KernelIdeal.Stages.okSeeds
  refine reduce_andi_one _ _ _ _ (fun _ => rfl) (ok_all _ _ _ 100000#32 (fun _ => rfl) (fun _ => rfl) ?_) j
  unfold Cert.KernelIdeal.Stages.colSeeds
  rw [hw]
  refine bcast_forall (fun w : BitVec 32 => 0 ≤ w.toInt ∧ w.toInt ≤ (100000#32 : BitVec 32).toInt) _ _ _ fun k => ?_
  have := h k
  rw [hm]; omega

/-- The candidate rows: with the padded candidate list in range the take is its gather. -/
theorem takeCand_eq (e : FVec F Cert.KernelIdeal.S100000x128 .f32) (s : IVec Cert.KernelIdeal.S51200 32) (h : InRange 100000 s) :
    Cert.KernelIdeal.Stages.takeCand e s
      = Host.gather Cert.KernelIdeal.gather_S100000x128_S51200x1_S51200x128_1_0_n_n_0_1_1128 e (Cert.KernelIdeal.Stages.colCand s) := by
  have hw : Cert.KernelIdeal.Stages.wrapCand s = s := wrap_eq 100000 s _ _ h (fun _ => rfl)
  have hm : (99999#32 : BitVec 32).toInt = 99999 := by decide
  unfold Cert.KernelIdeal.Stages.takeCand
  refine select_all_one _ _ _ (bcast_forall (· = 1#1) _ _ _ fun j => ?_)
  unfold Cert.KernelIdeal.Stages.okCand
  refine reduce_andi_one _ _ _ _ (fun _ => rfl) (ok_all _ _ _ 99999#32 (fun _ => rfl) (fun _ => rfl) ?_) j
  unfold Cert.KernelIdeal.Stages.colCand
  rw [hw]
  refine bcast_forall (fun w : BitVec 32 => 0 ≤ w.toInt ∧ w.toInt ≤ (99999#32 : BitVec 32).toInt) _ _ _ fun k => ?_
  have := h k
  rw [hm]; omega

/-- The candidates padded with zeros are in range when the candidates are. -/
theorem padCand_inRange (a2 : IVec Cert.KernelIdeal.S50000 32) (h : InRange 100000 a2) : InRange 100000 (Cert.KernelIdeal.Stages.padCand a2) := by
  intro j
  unfold Cert.KernelIdeal.Stages.padCand pad
  split
  · exact h _
  · show 0 ≤ (0#32 : BitVec 32).toInt ∧ (0#32 : BitVec 32).toInt < ((100000 : Nat) : Int)
    have hz : (0#32 : BitVec 32).toInt = 0 := by decide
    rw [hz]; omega

/-- A true range test `0 ≤ x ∧ x < m` of a word, decoded. -/
theorem range_lt_word (x m : BitVec 32) (h : IntOp.andi (IntOp.cmpi .sge x 0#32) (IntOp.cmpi .slt x m) = 1#1) :
    0 ≤ x.toInt ∧ x.toInt < m.toInt := by
  have hz : (0#32 : BitVec 32).toInt = 0 := by decide
  obtain ⟨ha, hb⟩ := IntOp.andi_eq_one.1 h
  have ha' := IntOp.cmpi_sge.1 ha
  rw [hz] at ha'
  exact ⟨ha', IntOp.cmpi_slt.1 hb⟩

/-- A true range test `0 ≤ x ∧ x ≤ m` of a word, decoded. -/
theorem range_le_word (x m : BitVec 32) (h : IntOp.andi (IntOp.cmpi .sge x 0#32) (IntOp.cmpi .sle x m) = 1#1) :
    0 ≤ x.toInt ∧ x.toInt ≤ m.toInt := by
  have hz : (0#32 : BitVec 32).toInt = 0 := by decide
  obtain ⟨ha, hb⟩ := IntOp.andi_eq_one.1 h
  have ha' := IntOp.cmpi_sge.1 ha
  rw [hz] at ha'
  exact ⟨ha', IntOp.cmpi_sle.1 hb⟩

/-- The precondition's four integer conjuncts, decoded: each index input is in range of the table it indexes. -/
theorem ranges_of_pre [Cert.Pre_finite_inputs.Facts]
    (a0 : IVec Cert.Pre_finite_inputs.S1x100 32) (a1 : FVec Ideal Cert.Pre_finite_inputs.S1x1 .f32) (a2 : IVec Cert.Pre_finite_inputs.S50000 32)
    (a3 : IVec Cert.Pre_finite_inputs.S100000 32) (a4 : FVec Ideal Cert.Pre_finite_inputs.S100000x1 .f32) (a5 : FVec Ideal Cert.Pre_finite_inputs.S100000x128 .f32)
    (a6 : IVec Cert.Pre_finite_inputs.S100000x10 32) (a7 a8 : FVec Ideal Cert.Pre_finite_inputs.S128x128 .f32)
    (a9 a10 a11 : FVec Ideal Cert.Pre_finite_inputs.S128x129 .f32)
    (h : Cert.Pre_finite_inputs.fn (F := Ideal) a0 a1 a2 a3 a4 a5 a6 a7 a8 a9 a10 a11 = fun _ => 1#1) :
    InRange 100000 a3 ∧ InRange 100000 a6 ∧ InRange 100000 a2 ∧ InRange 100001 a0 := by
  haveI : Subsingleton Cert.Pre_finite_inputs.S_.Idx := ⟨fun a b => funext fun d => d.elim0⟩
  have hm : (100000#32 : BitVec 32).toInt = 100000 := by decide
  have h0 := congrFun h (fun d => d.elim0)
  obtain ⟨h59, h65⟩ := IntOp.andi_eq_one.1 h0
  obtain ⟨h52, h58⟩ := IntOp.andi_eq_one.1 h59
  obtain ⟨h45, h51⟩ := IntOp.andi_eq_one.1 h52
  obtain ⟨h38, h44⟩ := IntOp.andi_eq_one.1 h45
  refine ⟨fun i => ?_, fun i => ?_, fun i => ?_, fun i => ?_⟩
  · have := range_lt_word (a3 i) 100000#32 (Host.reduce_andi_all _ _ _ _ _ h44 i)
    rw [hm] at this; exact this
  · have := range_lt_word (a6 i) 100000#32 (Host.reduce_andi_all _ _ _ _ _ h51 i)
    rw [hm] at this; exact this
  · have := range_lt_word (a2 i) 100000#32 (Host.reduce_andi_all _ _ _ _ _ h58 i)
    rw [hm] at this; exact this
  · have := range_le_word (a0 i) 100000#32 (Host.reduce_andi_all _ _ _ _ _ h65 i)
    rw [hm] at this
    exact ⟨this.1, by have := this.2; show (a0 i).toInt < ((100001 : Nat) : Int); omega⟩

end Cert.Fill

end
-- ==== Proof.Region0.lean ====
/-
  The first kernel region's output array as ONE function of the arrays the region finds. Each grid point `t` of twenty
  loads rows `5000·t … 5000·t + 4999` of the two row tables and of the mask column and the two whole weight matrices, and
  stores `max (x·Ws + nb·Wn) 0 · mask` for those rows; the blocks tile the rows, so the array the region leaves is the
  embedding `embOf` of the whole arrays.
-/
import proofs.«421012_j32959579030378_1_alg».proof.Proof.Gen.KernelIdeal.Frame
import proofs.«421012_j32959579030378_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The block product's operand indices, axis by axis -/

theorem blkdot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blkdot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem blkdot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem blkdot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product into the zero splat, at row p and lane q: the sum over the 128 contracted positions. -/
theorem blkdot_apply {φ₁ φ₂ : FTy} (x : FVec Ideal S5000x128 φ₁) (w : FVec Ideal S128x128 φ₂) (p : Fin 5000) (q : Fin 128) :
    FloatOps.matmul dot_S5000x128_S128x128_S5000x128_1_0_0_1_n_n none x w (constant (F := Ideal) S5000x128 .f32 0x00000000#32) (ix2 p q)
      = ∑ k : Fin 128, x (ix2 p k) * w (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact blkdot_lhs_0 _ _
    | ⟨1, _⟩ => exact (blkdot_lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (blkdot_rhs_0 _ _).trans hk
    | ⟨1, _⟩ => exact blkdot_rhs_1 _ _)
  rw [el, er]

/-- The mask column spread over the lanes, at row p and lane q: the column's entry at row p. -/
theorem blkmask_apply (x2 : Vec Ideal S5000x1 .f32) (p : Fin 5000) (q : Fin 128) :
    broadcastTo S5000x128 x2 broadcasts_S5000x1_S5000x128 (ix2 p q) = x2 (ix2 p (0 : Fin 1)) :=
  broadcastTo_apply x2 broadcasts_S5000x1_S5000x128 (ix2 p q) (ix2 p (0 : Fin 1)) (fun a => by
    match a with
    | ⟨0, _⟩ => rfl
    | ⟨1, _⟩ => rfl)

/-- The body's arithmetic at row p and lane q of its blocks. -/
theorem pay_apply (x0 x1 : Vec Ideal S5000x128 .f32) (x2 : Vec Ideal S5000x1 .f32) (x3 x4 : Vec Ideal S128x128 .f32)
    (p : Fin 5000) (q : Fin 128) :
    k0_pay1 x0 x1 x3 x4 x2 (ix2 p q)
      = max ((∑ k : Fin 128, (x0 (ix2 p k) : EReal) * x3 (ix2 k q)) + ∑ k : Fin 128, (x1 (ix2 p k) : EReal) * x4 (ix2 k q))
          (Ideal.ofBits .f32 0x00000000#32) * x2 (ix2 p (0 : Fin 1)) := by
  unfold k0_pay1
  simp only [shapeCast_self]
  refine (mulf_apply _ _ _).trans ?_
  refine congrArg₂ (· * ·) ?_ (blkmask_apply x2 p q)
  refine (maximumf_apply _ _ _).trans ?_
  refine congrArg₂ max ?_ rfl
  refine (addf_apply _ _ _).trans ?_
  exact congrArg₂ (· + ·) (blkdot_apply _ _ p q) (blkdot_apply _ _ p q)

/-! ## The reference's product over whole rows, axis by axis -/

theorem rowdot_lhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem rowdot_lhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rowdot_rhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rowdot_rhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's product of whole arrays, at row r and lane q: the sum over the 128 contracted positions. -/
theorem rowdot_apply (x : FVec Ideal Cert.ReferenceIdeal.S100000x128 .f32) (w : FVec Ideal Cert.ReferenceIdeal.S128x128 .f32) (r : Fin 100000) (q : Fin 128) :
    Host.dotGeneral (F := Ideal) Cert.ReferenceIdeal.dot_S100000x128_S128x128_S100000x128_1_0_0_1_n_n none x w (ix2 r q)
      = ∑ k : Fin 128, x (ix2 r k) * w (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact rowdot_lhs_0 _ _
    | ⟨1, _⟩ => exact (rowdot_lhs_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rowdot_rhs_0 _ _).trans hk
    | ⟨1, _⟩ => exact rowdot_rhs_1 _ _)
  rw [el, er]

/-- The embedding at row r and lane q. -/
theorem emb_apply (x nb : FVec Ideal Cert.ReferenceIdeal.S100000x128 .f32) (a4 : FVec Ideal Cert.ReferenceIdeal.S100000x1 .f32)
    (a7 a8 : FVec Ideal Cert.ReferenceIdeal.S128x128 .f32) (r : Fin 100000) (q : Fin 128) :
    Cert.ReferenceIdeal.Stages.embOf (F := Ideal) x nb a4 a7 a8 (ix2 r q)
      = max ((∑ k : Fin 128, x (ix2 r k) * a7 (ix2 k q)) + ∑ k : Fin 128, nb (ix2 r k) * a8 (ix2 k q))
          (Ideal.ofBits .f32 0x00000000#32) * a4 (ix2 r (0 : Fin 1)) := by
  unfold Cert.ReferenceIdeal.Stages.embOf
  refine (mulf_apply _ _ _).trans ?_
  refine congrArg₂ (· * ·) ?_ (broadcastInDim_apply _ _ a4 (ix2 r q) (ix2 r (0 : Fin 1)) (fun a => by
    match a with
    | ⟨0, _⟩ => rfl
    | ⟨1, _⟩ => rfl))
  refine (maximumf_apply _ _ _).trans ?_
  refine congrArg₂ max ?_ rfl
  refine (addf_apply _ _ _).trans ?_
  exact congrArg₂ (· + ·) (rowdot_apply x a7 r q) (rowdot_apply nb a8 r q)

/-! ## The blocks of a grid point, read off the arrays -/

variable (V : (c : Dev nD) → (b : Ref sig .tc) → Buf (Elt Ideal) ((c : Thread nD τ).loc b))

theorem zeroOff : (![0, 0] : Fin 2 → Nat) = fun _ => 0 :=
  funext fun a => match a with | ⟨0, _⟩ => rfl | ⟨1, _⟩ => rfl

/-- The printed index maps over the grid: the row tables, the mask column and the output move with the point along the
    rows and stay at lane block 0; the weight matrices stay at block 0; a point is below 20. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 20 :=
  (by decide +kernel : ∀ t : Fin grid0.N, _)

/-- Row p of point t's block of the first row table is row 5000·t + p of the table. -/
theorem read_x (c : Dev nD) (t : Fin cfg0.N) (p : Fin 5000) (k : Fin 128) (r : Fin 100000) (hr : r.val = t.val * 5000 + p.val) :
    (iblk0 V c 0 t (ix2 p k) : EReal) = V c main_v0 (ix2 r k) := by
  obtain ⟨e0, e1, -⟩ := blockIndex t
  show V c main_v0 (((cfg0.win 0).blk t).view.emb (ix2 p k)) = V c main_v0 (ix2 r k)
  refine congrArg (V c main_v0) (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row p of point t's block of the second row table is row 5000·t + p of the table. -/
theorem read_nb (c : Dev nD) (t : Fin cfg0.N) (p : Fin 5000) (k : Fin 128) (r : Fin 100000) (hr : r.val = t.val * 5000 + p.val) :
    (iblk0 V c 1 t (ix2 p k) : EReal) = V c main_v4 (ix2 r k) := by
  obtain ⟨-, -, e0, e1, -⟩ := blockIndex t
  show V c main_v4 (((cfg0.win 1).blk t).view.emb (ix2 p k)) = V c main_v4 (ix2 r k)
  refine congrArg (V c main_v4) (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Entry p of point t's block of the mask column is entry 5000·t + p of the column. -/
theorem read_mask (c : Dev nD) (t : Fin cfg0.N) (p : Fin 5000) (r : Fin 100000) (hr : r.val = t.val * 5000 + p.val) :
    (iblk0 V c 2 t (ix2 p (0 : Fin 1)) : EReal) = V c main_arg4 (ix2 r (0 : Fin 1)) := by
  obtain ⟨-, -, -, -, e0, e1, -⟩ := blockIndex t
  show V c main_arg4 (((cfg0.win 2).blk t).view.emb (ix2 p (0 : Fin 1))) = V c main_arg4 (ix2 r (0 : Fin 1))
  refine congrArg (V c main_arg4) (funext fun a => Fin.ext ?_)
  match a with
  | ⟨0, _⟩ => show win0_2.index t (0 : Fin 2) * 5000 + 1 * p.val = r.val; omega
  | ⟨1, _⟩ => show win0_2.index t (1 : Fin 2) * 1 + 1 * 0 = 0; omega

/-- Every point's block of the first weight matrix is the whole matrix. -/
theorem read_ws (c : Dev nD) (t : Fin cfg0.N) (k q : Fin 128) :
    (iblk0 V c 3 t (ix2 k q) : EReal) = V c main_arg7 (ix2 k q) := by
  obtain ⟨-, -, -, -, -, -, e0, e1, -⟩ := blockIndex t
  show V c main_arg7 (((cfg0.win 3).blk t).view.emb (ix2 k q)) = V c main_arg7 (ix2 k q)
  refine congrArg (V c main_arg7) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Every point's block of the second weight matrix is the whole matrix. -/
theorem read_wn (c : Dev nD) (t : Fin cfg0.N) (k q : Fin 128) :
    (iblk0 V c 4 t (ix2 k q) : EReal) = V c main_arg8 (ix2 k q) := by
  obtain ⟨-, -, -, -, -, -, -, -, e0, e1, -⟩ := blockIndex t
  show V c main_arg8 (((cfg0.win 4).blk t).view.emb (ix2 k q)) = V c main_arg8 (ix2 k q)
  refine congrArg (V c main_arg8) (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-! ## What a grid point writes back -/

/-- Point t writes back block t of the embedding of the whole arrays. -/
theorem flushed_eq_emb (c : Dev nD) (t : Fin cfg0.N) :
    (dat0 V c).flushed 5 t = ((cfg0.win 5).blk t).view.read (Elt Ideal)
      (Cert.ReferenceIdeal.Stages.embOf (F := Ideal) (V c main_v0) (V c main_v4) (V c main_arg4) (V c main_arg7) (V c main_arg8)) := by
  show (cfg0.win 5).cut (grid0.coords t) ((dat0 V c).after 5 t) = _
  rw [after0_5]
  unfold out0_5
  rw [View.canon_unit_zero zeroOff]
  simp only [View.ld_unit_zero (S := S5000x128) zeroOff, View.ld_unit_zero (S := S128x128) zeroOff, View.ld_unit_zero (S := S5000x1) zeroOff]
  obtain ⟨-, -, -, -, -, -, -, -, -, -, e0, e1, ht⟩ := blockIndex t
  refine funext fun (j : S5000x128.Idx) => ?_
  obtain ⟨p, q, rfl⟩ : ∃ (p : Fin 5000) (q : Fin 128), j = ix2 p q := ⟨j 0, j 1, eq_ix2 j⟩
  have hr : t.val * 5000 + p.val < 100000 := by have := p.isLt; omega
  have ei : ((cfg0.win 5).blk t).view.emb (ix2 p q) = ix2 (⟨t.val * 5000 + p.val, hr⟩ : Fin 100000) q := funext fun a => Fin.ext (by
    match a with
    | ⟨0, _⟩ => show win0_5.index t (0 : Fin 2) * 5000 + 1 * p.val = t.val * 5000 + p.val; omega
    | ⟨1, _⟩ => show win0_5.index t (1 : Fin 2) * 128 + 1 * q.val = q.val; omega)
  show k0_pay1 (iblk0 V c 0 t) (iblk0 V c 1 t) (iblk0 V c 3 t) (iblk0 V c 4 t) (iblk0 V c 2 t) (ix2 p q)
    = Cert.ReferenceIdeal.Stages.embOf (F := Ideal) (V c main_v0) (V c main_v4) (V c main_arg4) (V c main_arg7) (V c main_arg8)
        (((cfg0.win 5).blk t).view.emb (ix2 p q))
  rw [ei]
  refine (pay_apply (iblk0 V c 0 t) (iblk0 V c 1 t) (iblk0 V c 2 t) (iblk0 V c 3 t) (iblk0 V c 4 t) p q).trans ?_
  refine Eq.trans ?_ (emb_apply (V c main_v0) (V c main_v4) (V c main_arg4) (V c main_arg7) (V c main_arg8) ⟨t.val * 5000 + p.val, hr⟩ q).symm
  refine congrArg₂ (· * ·) (congrArg₂ max (congrArg₂ (· + ·)
      (Finset.sum_congr rfl fun k _ => congrArg₂ (· * ·) (read_x V c t p k ⟨t.val * 5000 + p.val, hr⟩ rfl) (read_ws V c t k q))
      (Finset.sum_congr rfl fun k _ => congrArg₂ (· * ·) (read_nb V c t p k ⟨t.val * 5000 + p.val, hr⟩ rfl) (read_wn V c t k q))) rfl)
    (read_mask V c t p ⟨t.val * 5000 + p.val, hr⟩ rfl)

/-! ## The blocks tile the rows -/

/-- A row and lane of the array are in point t's block iff each lies in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v5).slice (win0_5.rect t)).set ↔ _
  rw [View.set_slice_whole, Rect.mem_set_unit]
  exact Iff.rfl

/-- Row r lies in the block of point r / 5000. -/
theorem rows_covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : (i 0).val / 5000 < cfg0.N := by show _ < grid0.N; rw [N_0]; omega
  obtain ⟨t, ht⟩ : ∃ t : Fin cfg0.N, t.val = (i 0).val / 5000 := ⟨⟨_, hN⟩, rfl⟩
  obtain ⟨-, -, -, -, -, -, -, -, -, -, e0, e1, -⟩ := blockIndex t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- What the first region leaves in its output array: the embedding of the arrays it finds. -/
theorem final0_5 (c : Dev nD) : ((dat0 V c).arrAt 5 cfg0.N : FVec Ideal S100000x128 .f32)
    = Cert.ReferenceIdeal.Stages.embOf (F := Ideal) (V c main_v0) (V c main_v4) (V c main_arg4) (V c main_arg7) (V c main_arg8) :=
  (dat0 V c).arrAt_eq_of_cover 5 _ (fun t _ => flushed_eq_emb V c t) rows_covered

end Cert.KernelIdeal.Region0

end
-- ==== Proof.LibRowGather.lean ====
/-
  A row gather read at an index. `table[idx]` over a rank-2 table `[N, D]` at a column of start indices `[R, 1]` is the
  `stablehlo.gather` with offset axis 1, collapsed axis 0, start-index map `[0]`, index-vector axis 1 and slices of one
  whole row: result element `(r, k)` is the table at row `idx[r, 0]` — read signed and clamped into `[0, N − 1]` — and
  column `k`. The rank-3 form `[1, R, 1] → [1, R, D]` (a batch of one) reads the same way.
-/
import Idealize.ShloMosaic.Lib.ValueIdx

noncomputable section

namespace Cert.LibRowGather

open Idealize.ShloMosaic Idealize.ShloMosaic.ValueIdx

variable {α : Type}

/-- The dimension numbers of a row gather: operand `[N, D]`, start indices `[R, 1]`, result `[R, D]`. -/
abbrev rowDims (N R D : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Result element `(r, k)` of a row gather is the table at the clamped row `idx[r, 0]`, column `k`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (k : Fin D) :
    Host.gather (rowDims N R D wf) x idx (ix2 r k)
      = x (ix2 ⟨min (idx (ix2 r ⟨0, Nat.one_pos⟩)).toInt.toNat (N - 1), by omega⟩ k) := by
  unfold Host.gather
  congr 1
  funext a
  refine Fin.ext ?_
  show (rowDims N R D wf).start (ix2 r k) idx a + (rowDims N R D wf).batchCoord (ix2 r k) a
      + (rowDims N R D wf).offCoord (ix2 r k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowDims N R D wf).startIndexMap from List.mem_singleton.mpr rfl)]
    have hsi : (rowDims N R D wf).siIdx (ix2 r k) ⟨List.idxOf (⟨0, h0⟩ : Fin 2) (rowDims N R D wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, h1⟩ =>
    have hs : (rowDims N R D wf).start (ix2 r k) idx ⟨1, h1⟩ = 0 := by
      unfold GatherDims.start
      rw [dif_neg (show (⟨1, h1⟩ : Fin 2) ∉ (rowDims N R D wf).startIndexMap from
        fun h => absurd (congrArg Fin.val (List.mem_singleton.mp h)) Nat.one_ne_zero)]
    rw [hs]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add]
    rfl

end Cert.LibRowGather

end
-- ==== Proof.Region1.lean ====
/-
  The second kernel region's output array, cut back to the candidates' length, is the reference's score. Each grid point
  `t` of twenty-five loads rows `2048·t … 2048·t + 2047` of the taken candidate rows, the whole `W3` and the seeds' row, and
  stores `(1 − Σ_d logistic(c·W3)_d · sm_d) · 10⁵` for those rows; the blocks tile the 51200 padded rows, and the first
  50000 of them are the candidates' own rows, whose gathered embedding rows are the reference's.
-/
import proofs.«421012_j32959579030378_1_alg».proof.Proof.Gen.KernelIdeal.Frame
import proofs.«421012_j32959579030378_1_alg».proof.Proof.KernelStages
import proofs.«421012_j32959579030378_1_alg».proof.Proof.RefStages
import proofs.«421012_j32959579030378_1_alg».proof.Proof.LibRowGather
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

/-! ## One row's score, and the body's stored value -/

/-- One row's score from its 128 embedding entries. -/
def rowScore (x : Fin 128 → EReal) (w3 : FVec Ideal S128x129 .f32) (sm : FVec Ideal S1x129 .f32) : EReal :=
  (Ideal.ofBits .f32 0x3F800000#32
      - ∑ d : Fin 129, Ideal.logistic (∑ k : Fin 128, x k * w3 (ix2 k d)) * sm (ix2 (0 : Fin 1) d))
    * Ideal.ofBits .f32 0x47C35000#32

/-- The block product's operand indices at result index `i` and contraction index `q`, axis by axis: the left operand is read
    at (row of `i`, `q`), the right at (`q`, lane of `i`). -/
theorem blockDot_lhs_0 (i : S2048x129.Idx) (q : dot_S2048x128_S128x129_S2048x129_1_0_0_1_n_n.contr.Idx) :
    (dot_S2048x128_S128x129_S2048x129_1_0_0_1_n_n.lhsIdx i q 0).val = (i 0).val := by
  unfold DotDims.lhsIdx
  rw [dif_neg (show ¬(0 : Fin S2048x128.rank) ∈ dot_S2048x128_S128x129_S2048x129_1_0_0_1_n_n.lhsBatch by decide), dif_pos (show (0 : Fin S2048x128.rank) ∈ dot_S2048x128_S128x129_S2048x129_1_0_0_1_n_n.lhsNonContracting by decide)]
  rfl
theorem blockDot_lhs_1 (i : S2048x129.Idx) (q : dot_S2048x128_S128x129_S2048x129_1_0_0_1_n_n.contr.Idx) :
    (dot_S2048x128_S128x129_S2048x129_1_0_0_1_n_n.lhsIdx i q 1).val = (q ⟨0, by decide⟩).val :=
  dot_S2048x128_S128x129_S2048x129_1_0_0_1_n_n.lhsIdx_val_of_single rfl i q
theorem blockDot_rhs_0 (i : S2048x129.Idx) (q : dot_S2048x128_S128x129_S2048x129_1_0_0_1_n_n.contr.Idx) :
    (dot_S2048x128_S128x129_S2048x129_1_0_0_1_n_n.rhsIdx i q 0).val = (q ⟨0, by decide⟩).val :=
  dot_S2048x128_S128x129_S2048x129_1_0_0_1_n_n.rhsIdx_val_of_single rfl i q
theorem blockDot_rhs_1 (i : S2048x129.Idx) (q : dot_S2048x128_S128x129_S2048x129_1_0_0_1_n_n.contr.Idx) :
    (dot_S2048x128_S128x129_S2048x129_1_0_0_1_n_n.rhsIdx i q 1).val = (i 1).val := by
  unfold DotDims.rhsIdx
  rw [dif_neg (show ¬(1 : Fin S128x129.rank) ∈ dot_S2048x128_S128x129_S2048x129_1_0_0_1_n_n.rhsBatch by decide), dif_pos (show (1 : Fin S128x129.rank) ∈ dot_S2048x128_S128x129_S2048x129_1_0_0_1_n_n.rhsNonContracting by decide)]
  rfl

/-- The block's product into the zero accumulator, at row `p` and lane `d`: the sum over the 128 contracted entries. -/
theorem blockDot_apply (a : FVec Ideal S2048x128 .bf16) (b : FVec Ideal S128x129 .bf16) (p : Fin 2048) (d : Fin 129) :
    matmul dot_S2048x128_S128x129_S2048x129_1_0_0_1_n_n none a b (constant (F := Ideal) S2048x129 .f32 0x00000000#32) (ix2 p d)
      = ∑ k : Fin 128, a (ix2 p k) * b (ix2 k d) := by
  simp only [matmul]
  rw [Ideal.matmul_constant_zero_apply, ← Equiv.sum_comp (contrEquiv1 dot_S2048x128_S128x129_S2048x129_1_0_0_1_n_n 128 rfl rfl).symm]
  refine Finset.sum_congr rfl fun k _ => ?_
  have hk := contrEquiv1_symm_val dot_S2048x128_S128x129_S2048x129_1_0_0_1_n_n 128 rfl rfl k
  have el : dot_S2048x128_S128x129_S2048x129_1_0_0_1_n_n.lhsIdx (ix2 p d) ((contrEquiv1 dot_S2048x128_S128x129_S2048x129_1_0_0_1_n_n 128 rfl rfl).symm k) = ix2 p k := funext fun a => Fin.ext (by
    match a with
    | ⟨0, _⟩ => exact blockDot_lhs_0 _ _
    | ⟨1, _⟩ => exact (blockDot_lhs_1 _ _).trans hk)
  have er : dot_S2048x128_S128x129_S2048x129_1_0_0_1_n_n.rhsIdx (ix2 p d) ((contrEquiv1 dot_S2048x128_S128x129_S2048x129_1_0_0_1_n_n 128 rfl rfl).symm k) = ix2 k d := funext fun a => Fin.ext (by
    match a with
    | ⟨0, _⟩ => exact (blockDot_rhs_0 _ _).trans hk
    | ⟨1, _⟩ => exact blockDot_rhs_1 _ _)
  rw [el, er]

/-- The lane sum of a block at row `p`: the sum over its 129 lanes. -/
theorem laneSum_apply (x : FVec Ideal S2048x129 .f32) (hacc : (0x00000000#32 : BitVec 32) = 0x00000000#32) (p : Fin 2048) :
    multiReduction (F := Ideal) .add [1] S2048 x 0x00000000#32 reduces_S2048x129_S2048 (.inl rfl) hacc (ix1 p)
      = ∑ d : Fin 129, x (ix2 p d) := by
  refine (Ideal.multiReduction_add_single x 0x00000000#32 reduces_S2048x129_S2048 (.inl rfl) hacc (ix1 p)).trans ?_
  refine Finset.sum_congr rfl fun d _ => ?_
  exact congrArg x (funext fun a => Fin.ext (by match a with | ⟨0, _⟩ => rfl | ⟨1, _⟩ => rfl))

/-- The seeds' row broadcast down the block's rows, at row `p` and lane `d`, is the row's lane `d`. -/
theorem seedRow_apply (x : FVec Ideal S1x129 .f32) (p : Fin 2048) (d : Fin 129) :
    broadcastTo S2048x129 x broadcasts_S1x129_S2048x129 (ix2 p d) = x (ix2 (0 : Fin 1) d) :=
  broadcastTo_apply x broadcasts_S1x129_S2048x129 (ix2 p d) (ix2 (0 : Fin 1) d) (fun a => match a with
    | ⟨0, _⟩ => by show 0 = if (1 : Nat) = 1 then 0 else _; rw [if_pos rfl]
    | ⟨1, _⟩ => by show d.val = if (129 : Nat) = 1 then 0 else d.val; rw [if_neg (by decide)])

/-- The body's stored value at row `p` of its block is that row's score. -/
theorem payload_apply (v0 : Vec Ideal S2048x128 .f32) (v3 : Vec Ideal S128x129 .f32) (v7 : Vec Ideal S1x129 .f32) (p : Fin 2048) :
    k1_pay1 (F := Ideal) v0 v3 v7 (ix1 p) = rowScore (fun k => v0 (ix2 p k)) v3 v7 := by
  unfold k1_pay1 rowScore
  rw [shapeCast_self, shapeCast_self]
  rw [mulf_apply, subf_apply, broadcast_apply, broadcast_apply, laneSum_apply]
  refine congrArg (fun s => (Ideal.ofBits .f32 0x3F800000#32 - s) * Ideal.ofBits .f32 0x47C35000#32) ?_
  refine Finset.sum_congr rfl fun d _ => ?_
  rw [mulf_apply, seedRow_apply]
  refine congrArg (· * v7 (ix2 (0 : Fin 1) d)) ?_
  show Ideal.logistic (matmul (F := Ideal) dot_S2048x128_S128x129_S2048x129_1_0_0_1_n_n none _ _ _ (ix2 p d)) = _
  rw [blockDot_apply]
  rfl

/-! ## The candidate rows and the reference's score -/

/-- The index wrap on one word: a negative index counts from the end of the 100000 rows. -/
def wrapWord (x : BitVec 32) : BitVec 32 :=
  Scalar.select (IntOp.cmpi .slt x 0#32) (IntOp.addi x 100000#32) x

/-- The gather's clamp of a start index, read signed, into the table's 100000 rows. -/
def clampRow (w : BitVec 32) : Fin 100000 := ⟨min w.toInt.toNat (100000 - 1), by omega⟩

/-- The kernel program's wrap of the padded list, and the reference's wrap of the candidates, are that wrap entry by entry. -/
theorem wrapCand_apply (s : IVec S51200 32) (i : S51200.Idx) : Stages.wrapCand s i = wrapWord (s i) := rfl

theorem refWrapCand_apply (a2 : IVec S50000 32) (i : S50000.Idx) :
    Cert.ReferenceIdeal.Stages.wrapCand a2 i = wrapWord (a2 i) := rfl

/-- The padded candidate list at one of the first 50000 places is the candidate there. -/
theorem padCand_apply (a2 : IVec S50000 32) (j : Fin 50000) :
    Stages.padCand a2 (ix1 (⟨j.val, by omega⟩ : Fin 51200)) = a2 (ix1 j) := by
  unfold Stages.padCand
  exact pad_apply_of_inside _ _ _ a2 _ pads_S50000_S51200_012000 h_S_ (ix1 (⟨j.val, by omega⟩ : Fin 51200)) (ix1 j)
    (fun a => match a with | ⟨0, _⟩ => by show j.val = 0 + j.val * (0 + 1); omega)

/-- The wrapped list as a column, at row `r`, is the wrapped entry `r`. -/
theorem colCand_apply (s : IVec S51200 32) (r : Fin 51200) :
    Stages.colCand s (ix2 r (⟨0, Nat.one_pos⟩ : Fin 1)) = wrapWord (s (ix1 r)) := by
  unfold Stages.colCand
  refine (broadcastInDim_apply _ bcast_S51200_S51200x1_0 (Stages.wrapCand s) (ix2 r (⟨0, Nat.one_pos⟩ : Fin 1)) (ix1 r)
    (fun a => match a with | ⟨0, _⟩ => by show r.val = if (51200 : Nat) = 1 then 0 else r.val; rw [if_neg (by decide)])).trans ?_
  rfl

/-- The kernel program's gathered rows at row `r`, column `k`. -/
theorem candRows_apply (e : FVec Ideal S100000x128 .f32) (idx : IVec S51200x1 32) (r : Fin 51200) (k : Fin 128) :
    Host.gather gather_S100000x128_S51200x1_S51200x128_1_0_n_n_0_1_1128 e idx (ix2 r k)
      = e (ix2 (clampRow (idx (ix2 r (⟨0, Nat.one_pos⟩ : Fin 1)))) k) :=
  Cert.LibRowGather.gather_rows_apply (N := 100000) (R := 51200) (D := 128) (by decide)
    gather_S100000x128_S51200x1_S51200x128_1_0_n_n_0_1_1128.wf e idx r k

/-! ## The reference's score at a candidate -/

/-- The reference product's operand indices, axis by axis: the left operand at (candidate of `i`, `q`), the right at (`q`, lane of `i`). -/
theorem refDot_lhs_0 (i : Cert.ReferenceIdeal.S50000x129.Idx) (q : Cert.ReferenceIdeal.dot_S50000x128_S128x129_S50000x129_1_0_0_1_n_n.contr.Idx) :
    (Cert.ReferenceIdeal.dot_S50000x128_S128x129_S50000x129_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x129_S50000x129_1_0_0_1_n_n.lhsBatch by decide), dif_pos (show (0 : Fin Cert.ReferenceIdeal.S50000x128.rank) ∈ Cert.ReferenceIdeal.dot_S50000x128_S128x129_S50000x129_1_0_0_1_n_n.lhsNonContracting by decide)]
  rfl
theorem refDot_lhs_1 (i : Cert.ReferenceIdeal.S50000x129.Idx) (q : Cert.ReferenceIdeal.dot_S50000x128_S128x129_S50000x129_1_0_0_1_n_n.contr.Idx) :
    (Cert.ReferenceIdeal.dot_S50000x128_S128x129_S50000x129_1_0_0_1_n_n.lhsIdx i q 1).val = (q ⟨0, by decide⟩).val :=
  Cert.ReferenceIdeal.dot_S50000x128_S128x129_S50000x129_1_0_0_1_n_n.lhsIdx_val_of_single rfl i q
theorem refDot_rhs_0 (i : Cert.ReferenceIdeal.S50000x129.Idx) (q : Cert.ReferenceIdeal.dot_S50000x128_S128x129_S50000x129_1_0_0_1_n_n.contr.Idx) :
    (Cert.ReferenceIdeal.dot_S50000x128_S128x129_S50000x129_1_0_0_1_n_n.rhsIdx i q 0).val = (q ⟨0, by decide⟩).val :=
  Cert.ReferenceIdeal.dot_S50000x128_S128x129_S50000x129_1_0_0_1_n_n.rhsIdx_val_of_single rfl i q
theorem refDot_rhs_1 (i : Cert.ReferenceIdeal.S50000x129.Idx) (q : Cert.ReferenceIdeal.dot_S50000x128_S128x129_S50000x129_1_0_0_1_n_n.contr.Idx) :
    (Cert.ReferenceIdeal.dot_S50000x128_S128x129_S50000x129_1_0_0_1_n_n.rhsIdx i q 1).val = (i 1).val := by
  unfold DotDims.rhsIdx
  rw [dif_neg (show ¬(1 : Fin Cert.ReferenceIdeal.S128x129.rank) ∈ Cert.ReferenceIdeal.dot_S50000x128_S128x129_S50000x129_1_0_0_1_n_n.rhsBatch by decide), dif_pos (show (1 : Fin Cert.ReferenceIdeal.S128x129.rank) ∈ Cert.ReferenceIdeal.dot_S50000x128_S128x129_S50000x129_1_0_0_1_n_n.rhsNonContracting by decide)]
  rfl

/-- The reference's product at candidate `q` and lane `d`: the sum over the 128 contracted entries. -/
theorem refDot_apply (a : FVec Ideal Cert.ReferenceIdeal.S50000x128 .f32) (b : FVec Ideal Cert.ReferenceIdeal.S128x129 .f32) (q : Fin 50000) (d : Fin 129) :
    Host.dotGeneral (F := Ideal) Cert.ReferenceIdeal.dot_S50000x128_S128x129_S50000x129_1_0_0_1_n_n none a b (ix2 q d)
      = ∑ k : Fin 128, a (ix2 q k) * b (ix2 k d) := by
  simp only [Host.dotGeneral]
  rw [Ideal.dotGeneral_apply, ← Equiv.sum_comp (contrEquiv1 Cert.ReferenceIdeal.dot_S50000x128_S128x129_S50000x129_1_0_0_1_n_n 128 rfl rfl).symm]
  refine Finset.sum_congr rfl fun k _ => ?_
  have hk := contrEquiv1_symm_val Cert.ReferenceIdeal.dot_S50000x128_S128x129_S50000x129_1_0_0_1_n_n 128 rfl rfl k
  have el : Cert.ReferenceIdeal.dot_S50000x128_S128x129_S50000x129_1_0_0_1_n_n.lhsIdx (ix2 q d) ((contrEquiv1 Cert.ReferenceIdeal.dot_S50000x128_S128x129_S50000x129_1_0_0_1_n_n 128 rfl rfl).symm k) = ix2 q k := funext fun a => Fin.ext (by
    match a with
    | ⟨0, _⟩ => exact refDot_lhs_0 _ _
    | ⟨1, _⟩ => exact (refDot_lhs_1 _ _).trans hk)
  have er : Cert.ReferenceIdeal.dot_S50000x128_S128x129_S50000x129_1_0_0_1_n_n.rhsIdx (ix2 q d) ((contrEquiv1 Cert.ReferenceIdeal.dot_S50000x128_S128x129_S50000x129_1_0_0_1_n_n 128 rfl rfl).symm k) = ix2 k d := funext fun a => Fin.ext (by
    match a with
    | ⟨0, _⟩ => exact (refDot_rhs_0 _ _).trans hk
    | ⟨1, _⟩ => exact refDot_rhs_1 _ _)
  rw [el, er]

/-- The reference's sum over the lanes from the zero initial value, at candidate `q`. -/
theorem refLaneSum_apply (x : FVec Ideal Cert.ReferenceIdeal.S50000x129 .f32) (q : Fin 50000) :
    Host.reduceAdd (F := Ideal) x (constant (F := Ideal) Cert.ReferenceIdeal.S_ .f32 0x00000000#32)
        Cert.ReferenceIdeal.Gen.reducesTo_S50000x129_S50000_d1 Cert.ReferenceIdeal.Gen.h_S_ (ix1 q)
      = ∑ d : Fin 129, x (ix2 q d) := by
  rw [hostReduceAdd_apply, Ideal.hostReduceAdd_single Cert.ReferenceIdeal.Gen.reducesTo_S50000x129_S50000_d1 (by decide)]
  rw [constant_apply, Ideal.ofBits_zero_f32, zero_add]
  refine Finset.sum_congr rfl fun d _ => ?_
  exact congrArg x (funext fun a => Fin.ext (by match a with | ⟨0, _⟩ => rfl | ⟨1, _⟩ => rfl))

/-- The reference's gathered rows at candidate `q`, column `k`. -/
theorem refRows_apply (e : FVec Ideal Cert.ReferenceIdeal.S100000x128 .f32) (idx : IVec Cert.ReferenceIdeal.S50000x1 32) (q : Fin 50000) (k : Fin 128) :
    Host.gather Cert.ReferenceIdeal.gather_S100000x128_S50000x1_S50000x128_1_0_n_n_0_1_1128 e idx (ix2 q k)
      = e (ix2 (clampRow (idx (ix2 q (⟨0, Nat.one_pos⟩ : Fin 1)))) k) :=
  Cert.LibRowGather.gather_rows_apply (N := 100000) (R := 50000) (D := 128) (by decide)
    Cert.ReferenceIdeal.gather_S100000x128_S50000x1_S50000x128_1_0_n_n_0_1_1128.wf e idx q k

/-- The reference's wrapped candidates as a column, at candidate `q`, is the wrapped candidate `q`. -/
theorem refCol_apply (a2 : IVec Cert.ReferenceIdeal.S50000 32) (q : Fin 50000) :
    broadcastInDim Cert.ReferenceIdeal.S50000x1 ![0] Cert.ReferenceIdeal.Gen.bcast_S50000_S50000x1_0 (Cert.ReferenceIdeal.Stages.wrapCand a2)
        (ix2 q (⟨0, Nat.one_pos⟩ : Fin 1)) = wrapWord (a2 (ix1 q)) := by
  refine (broadcastInDim_apply _ Cert.ReferenceIdeal.Gen.bcast_S50000_S50000x1_0 (Cert.ReferenceIdeal.Stages.wrapCand a2) (ix2 q (⟨0, Nat.one_pos⟩ : Fin 1)) (ix1 q)
    (fun a => match a with | ⟨0, _⟩ => by show q.val = if (50000 : Nat) = 1 then 0 else q.val; rw [if_neg (by decide)])).trans ?_
  rfl

/-- The reference's logistic, spelt with the word of one, is the logistic. -/
theorem refLogistic (y : EReal) :
    Ideal.div (Ideal.ofBits .f32 0x3F800000#32) (Ideal.ofBits .f32 0x3F800000#32 + Ideal.exp (-y)) = Ideal.logistic y := by
  rw [Ideal.ofBits_one_f32]; rfl

/-- The reference's score at candidate `q`: the row score of the embedding row the wrapped, clamped candidate names. -/
theorem qOf_apply (e : FVec Ideal Cert.ReferenceIdeal.S100000x128 .f32) (a2 : IVec Cert.ReferenceIdeal.S50000 32)
    (a11 : FVec Ideal Cert.ReferenceIdeal.S128x129 .f32) (sm : FVec Ideal Cert.ReferenceIdeal.S1x129 .f32) (q : Fin 50000) :
    Cert.ReferenceIdeal.Stages.qOf e a2 a11 sm (ix1 q)
      = rowScore (fun k => e (ix2 (clampRow (wrapWord (a2 (ix1 q)))) k)) a11 sm := by
  unfold Cert.ReferenceIdeal.Stages.qOf rowScore
  rw [mulf_apply, subf_apply, refLaneSum_apply]
  refine congrArg (fun s => (Ideal.ofBits .f32 0x3F800000#32 - s) * Ideal.ofBits .f32 0x47C35000#32) ?_
  refine Finset.sum_congr rfl fun d _ => ?_
  rw [mulf_apply]
  refine congrArg₂ (· * ·) ?_ ?_
  · refine Eq.trans ?_ (refLogistic _)
    show Ideal.div _ (_ + Ideal.exp (-(Host.dotGeneral (F := Ideal) Cert.ReferenceIdeal.dot_S50000x128_S128x129_S50000x129_1_0_0_1_n_n none _ _ (ix2 q d)))) = _
    rw [refDot_apply]
    refine congrArg (fun s => Ideal.div (Ideal.ofBits .f32 0x3F800000#32) (Ideal.ofBits .f32 0x3F800000#32 + Ideal.exp (-s))) ?_
    refine Finset.sum_congr rfl fun k _ => ?_
    rw [refRows_apply, refCol_apply]
  · exact broadcastInDim_apply _ Cert.ReferenceIdeal.Gen.bcast_S1x129_S50000x129_0_1 sm (ix2 q d) (ix2 (0 : Fin 1) d) (fun a => match a with
      | ⟨0, _⟩ => by show 0 = if (1 : Nat) = 1 then 0 else q.val; rw [if_pos rfl]
      | ⟨1, _⟩ => by show d.val = if (129 : Nat) = 1 then 0 else d.val; rw [if_neg (by decide)])

/-- The score array of the kernel: each of the 51200 rows scored from the candidate rows `cf`. -/
def scoreK (cf : FVec Ideal S51200x128 .f32) (w3 : FVec Ideal S128x129 .f32) (sm : FVec Ideal S1x129 .f32) : FVec Ideal S51200 .f32 :=
  fun j => rowScore (fun k => cf (ix2 (⟨(j 0).val, (j 0).isLt⟩ : Fin 51200) k)) w3 sm

/-- At one of the first 50000 rows the kernel's score array, on the rows gathered at the padded candidate list, is the reference's score. -/
theorem score_eq_ref (e : FVec Ideal S100000x128 .f32) (a2 : IVec S50000 32) (a11 : FVec Ideal S128x129 .f32) (sm : FVec Ideal S1x129 .f32) (q : Fin 50000) :
    scoreK (Host.gather gather_S100000x128_S51200x1_S51200x128_1_0_n_n_0_1_1128 e (Stages.colCand (Stages.padCand a2))) a11 sm
        (ix1 (⟨q.val, by omega⟩ : Fin 51200))
      = Cert.ReferenceIdeal.Stages.qOf e a2 a11 sm (ix1 q) := by
  rw [qOf_apply]
  show rowScore (fun k => Host.gather gather_S100000x128_S51200x1_S51200x128_1_0_n_n_0_1_1128 e (Stages.colCand (Stages.padCand a2))
    (ix2 (⟨q.val, by omega⟩ : Fin 51200) k)) a11 sm = _
  refine congrArg (fun x => rowScore x a11 sm) (funext fun k => ?_)
  rw [candRows_apply, colCand_apply, padCand_apply]

/-! ## From the blocks to the array -/

variable (V : (c : Dev nD) → (b : Ref sig .tc) → Buf (Elt Ideal) ((c : Thread nD τ).loc b))

/-- The body's accesses start at offset zero on every axis. -/
theorem zeroOff1 : (![0] : Fin 1 → Nat) = fun _ => 0 := funext fun a => by fin_cases a; rfl
theorem zeroOff2 : (![0, 0] : Fin 2 → Nat) = fun _ => 0 := funext fun a => by fin_cases a <;> rfl

/-- The printed index maps over the twenty-five points: the candidate rows' block moves with the output's block, which is the
    point's own number; `W3` and the seeds' row are whole at every point. -/
theorem index_facts : ∀ t : Fin cfg1.N,
    win1_0.index t (0 : Fin 2) = win1_3.index t (0 : Fin 1) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = t.val :=
  (by decide +kernel : ∀ t : Fin grid1.N, _)

/-- The body's stored value at any index of its block. -/
theorem payload_apply' (v0 : Vec Ideal S2048x128 .f32) (v3 : Vec Ideal S128x129 .f32) (v7 : Vec Ideal S1x129 .f32) (y : S2048.Idx) :
    k1_pay1 (F := Ideal) v0 v3 v7 y = rowScore (fun k => v0 (ix2 (⟨(y 0).val, (y 0).isLt⟩ : Fin 2048) k)) v3 v7 := by
  obtain ⟨p, rfl⟩ : ∃ p : Fin 2048, y = ix1 p := ⟨⟨(y 0).val, (y 0).isLt⟩, funext fun a => match a with | ⟨0, _⟩ => rfl⟩
  exact payload_apply v0 v3 v7 p

/-- A row's score depends only on the row's entries, on `W3`'s entries and on the seeds' row's entries. -/
theorem rowScore_congr {x x' : Fin 128 → EReal} {w w' : FVec Ideal S128x129 .f32} {s s' : FVec Ideal S1x129 .f32}
    (hx : ∀ k, x k = x' k) (hw : ∀ (k : Fin 128) (d : Fin 129), w (ix2 k d) = w' (ix2 k d))
    (hs : ∀ d : Fin 129, s (ix2 (0 : Fin 1) d) = s' (ix2 (0 : Fin 1) d)) : rowScore x w s = rowScore x' w' s' := by
  unfold rowScore
  refine congrArg (fun s => (Ideal.ofBits .f32 0x3F800000#32 - s) * Ideal.ofBits .f32 0x47C35000#32) ?_
  refine Finset.sum_congr rfl fun d _ => ?_
  rw [hs d]
  refine congrArg (fun s => Ideal.logistic s * s' (ix2 (0 : Fin 1) d)) ?_
  refine Finset.sum_congr rfl fun k _ => ?_
  rw [hx k, hw k d]

/-- What point `t` writes back is block `t` of the score array of the three arrays as the region finds them. -/
theorem flushed_eq (c : Dev nD) (t : Fin cfg1.N) :
    (dat1 V c).flushed 3 t
      = ((cfg1.win 3).blk t).view.read (Elt Ideal) (scoreK (V c main_v22) (V c main_arg11) (V c main_v20)) := by
  show (cfg1.win 3).cut (grid1.coords t) ((dat1 V c).after 3 t) = _
  rw [after1_3]
  unfold out1_3
  rw [View.canon_unit_zero zeroOff1]
  simp only [View.ld_unit_zero (S := S2048x128) zeroOff2, View.ld_unit_zero (S := S128x129) zeroOff2, View.ld_unit_zero (S := S1x129) zeroOff2]
  obtain ⟨e0, e1, e2, e3, e4, e5, e6⟩ := index_facts t
  funext y
  show k1_pay1 (F := Ideal) (iblk1 V c 0 t) (iblk1 V c 1 t) (iblk1 V c 2 t) y
    = scoreK (V c main_v22) (V c main_arg11) (V c main_v20) (((cfg1.win 3).blk t).view.emb y)
  refine (payload_apply' (iblk1 V c 0 t) (iblk1 V c 1 t) (iblk1 V c 2 t) y).trans ?_
  unfold scoreK
  have hy : (y 0).val < 2048 := (y 0).isLt
  refine rowScore_congr (fun k => ?_) (fun k d => ?_) (fun d => ?_)
  · show V c main_v22 (((cfg1.win 0).blk t).view.emb (ix2 (⟨(y 0).val, (y 0).isLt⟩ : Fin 2048) k)) = V c main_v22 _
    refine congrArg (V c main_v22) (funext fun a => Fin.ext ?_)
    match a with
    | ⟨0, _⟩ => show win1_0.index t (0 : Fin 2) * 2048 + 1 * (y 0).val = win1_3.index t (0 : Fin 1) * 2048 + 1 * (y 0).val; omega
    | ⟨1, _⟩ => show win1_0.index t (1 : Fin 2) * 128 + 1 * k.val = k.val; omega
  · show V c main_arg11 (((cfg1.win 1).blk t).view.emb (ix2 k d)) = V c main_arg11 (ix2 k d)
    refine congrArg (V c main_arg11) (funext fun a => Fin.ext ?_)
    match a with
    | ⟨0, _⟩ => show win1_1.index t (0 : Fin 2) * 128 + 1 * k.val = k.val; omega
    | ⟨1, _⟩ => show win1_1.index t (1 : Fin 2) * 129 + 1 * d.val = d.val; omega
  · show V c main_v20 (((cfg1.win 2).blk t).view.emb (ix2 (0 : Fin 1) d)) = V c main_v20 (ix2 (0 : Fin 1) d)
    refine congrArg (V c main_v20) (funext fun a => Fin.ext ?_)
    match a with
    | ⟨0, _⟩ => show win1_2.index t (0 : Fin 2) * 1 + 1 * 0 = 0; omega
    | ⟨1, _⟩ => show win1_2.index t (1 : Fin 2) * 129 + 1 * d.val = d.val; omega

/-- An index of the output array is in point `t`'s block iff it lies in the block's range of 2048 rows. -/
theorem mem_blk (t : Fin cfg1.N) (i : S51200.Idx) :
    i ∈ ((cfg1.win 3).blk t).view.set
      ↔ ∀ a : Fin 1, win1_3.index t a * S2048.size a ≤ (i a).val ∧ (i a).val < win1_3.index t a * S2048.size a + S2048.size a := by
  show i ∈ ((View.whole main_v23).slice (win1_3.rect t)).set ↔ _
  rw [View.set_slice_whole, Rect.mem_set_unit]
  exact Iff.rfl

/-- The twenty-five blocks of 2048 rows tile the 51200 rows: row `r` lies in block `r / 2048`. -/
theorem cover (i : S51200.Idx) :
    ∃ t : Fin cfg1.N, (cfg1.win 3).flush t = true ∧ i ∈ ((cfg1.win 3).blk t).view.set := by
  have hi : (i 0).val < 51200 := (i 0).isLt
  have ht : (i 0).val / 2048 < cfg1.N := lt_of_lt_of_eq (by omega : (i 0).val / 2048 < 25) N_1.symm
  refine ⟨⟨(i 0).val / 2048, ht⟩, flush1_3 _, ?_⟩
  rw [mem_blk]
  obtain ⟨-, -, -, -, -, -, e6⟩ := index_facts ⟨(i 0).val / 2048, ht⟩
  intro a
  match a with
  | ⟨0, _⟩ =>
    show win1_3.index ⟨(i 0).val / 2048, ht⟩ (0 : Fin 1) * 2048 ≤ (i 0).val
      ∧ (i 0).val < win1_3.index ⟨(i 0).val / 2048, ht⟩ (0 : Fin 1) * 2048 + 2048
    rw [e6]
    show (i 0).val / 2048 * 2048 ≤ (i 0).val ∧ (i 0).val < (i 0).val / 2048 * 2048 + 2048
    omega

/-- The output array after the region is the score array of the three arrays the region finds. -/
theorem final_array (c : Dev nD) :
    (dat1 V c).arrAt 3 cfg1.N = scoreK (V c main_v22) (V c main_arg11) (V c main_v20) :=
  (dat1 V c).arrAt_eq_of_cover 3 (scoreK (V c main_v22) (V c main_arg11) (V c main_v20)) (fun t _ => flushed_eq V c t) cover

/-- The second region's output array, sliced to its first 50000 entries, is the reference's score of the embedding `e`, the
    candidate list `a2`, `W3` and the seeds' row — when the region finds the rows of `e` gathered at the padded candidate
    list, `W3` and that row. -/
theorem final_slice (c : Dev nD) (e : FVec Ideal S100000x128 .f32) (a2 : IVec S50000 32) (a11 : FVec Ideal S128x129 .f32)
    (sm : FVec Ideal S1x129 .f32)
    (h22 : V c main_v22 = Host.gather gather_S100000x128_S51200x1_S51200x128_1_0_n_n_0_1_1128 e (Stages.colCand (Stages.padCand a2)))
    (h11 : V c main_arg11 = a11) (h20 : V c main_v20 = sm) :
    extractStridedSlice S50000 ![0] ((dat1 V c).arrAt 3 cfg1.N) slices_S51200_S50000_0
      = Cert.ReferenceIdeal.Stages.qOf e a2 a11 sm := by
  rw [final_array V c, h22, h11, h20]
  funext j
  obtain ⟨q, rfl⟩ : ∃ q : Fin 50000, j = ix1 q := ⟨⟨(j 0).val, (j 0).isLt⟩, funext fun a => match a with | ⟨0, _⟩ => rfl⟩
  refine (extractStridedSlice_apply ![0] _ slices_S51200_S50000_0 (ix1 q) (ix1 (⟨q.val, by omega⟩ : Fin 51200))
    (fun a => match a with | ⟨0, _⟩ => by show q.val = 0 + q.val; omega)).trans ?_
  exact score_eq_ref e a2 a11 sm q

end Cert.KernelIdeal.Region1

end
-- ==== Proof.Seeds.lean ====
/-
  The seeds' sum, both ways. The kernel program gathers the hundred seed rows of the padded embedding as a `[100, 128]`
  array and sums over its first axis; the reference gathers them as `[1, 100, 128]` and sums over the middle axis. Entry
  `k` of either is `Σ_s p[row(s), k]` with `row(s)` the wrapped, clamped seed index `s`: the same sum.
-/
import proofs.«421012_j32959579030378_1_alg».proof.Proof.KernelStages
import proofs.«421012_j32959579030378_1_alg».proof.Proof.RefStages
import proofs.«421012_j32959579030378_1_alg».proof.Proof.LibRowGather
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Seeds

open Cert.KernelIdeal Cert.KernelIdeal.Gen Idealize.ShloMosaic

open Idealize.ShloMosaic.ValueIdx

section RowGather3
variable {α : Type}

/-- The dimension numbers of a batched row gather: operand `[N, D]`, start indices `[B, R, 1]`, result `[B, R, D]`. -/
abbrev rowDims3 (N B R D : Nat)
    (wf : GatherDims.WF ⟨2, ![N, D]⟩ ⟨3, ![B, R, 1]⟩ ⟨3, ![B, R, D]⟩ [2] [0] [] [0] [] 2 ![1, D]) :
    GatherDims ⟨2, ![N, D]⟩ ⟨3, ![B, R, 1]⟩ ⟨3, ![B, R, D]⟩ where
  offsetDims := [2]
  collapsedSliceDims := [0]
  operandBatchingDims := []
  startIndicesBatchingDims := []
  startIndexMap := [0]
  indexVectorDim := 2
  sliceSizes := ![1, D]
  wf := wf

/-- Result element `(b, r, k)` of a batched row gather is the table at the clamped row `idx[b, r, 0]`, column `k`. -/
theorem gather_rows3_apply {N B R D w : Nat} (hN : 0 < N)
    (wf : GatherDims.WF ⟨2, ![N, D]⟩ ⟨3, ![B, R, 1]⟩ ⟨3, ![B, R, D]⟩ [2] [0] [] [0] [] 2 ![1, D])
    (x : (⟨2, ![N, D]⟩ : Shape).Idx → α) (idx : IVec ⟨3, ![B, R, 1]⟩ w) (b : Fin B) (r : Fin R) (k : Fin D) :
    Host.gather (rowDims3 N B R D wf) x idx (ix3 b r k)
      = x (ix2 ⟨min (idx (ix3 b r ⟨0, Nat.one_pos⟩)).toInt.toNat (N - 1), by omega⟩ k) := by
  unfold Host.gather
  congr 1
  funext a
  refine Fin.ext ?_
  show (rowDims3 N B R D wf).start (ix3 b r k) idx a + (rowDims3 N B R D wf).batchCoord (ix3 b r k) a
      + (rowDims3 N B R D wf).offCoord (ix3 b r k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowDims3 N B R D wf).startIndexMap from List.mem_singleton.mpr rfl)]
    have hsi : (rowDims3 N B R D wf).siIdx (ix3 b r k) ⟨List.idxOf (⟨0, h0⟩ : Fin 2) (rowDims3 N B R D wf).startIndexMap,
        List.idxOf_lt_length_iff.2 (List.mem_singleton.mpr rfl)⟩ = ix3 b r ⟨0, Nat.one_pos⟩ := by
      funext c; refine Fin.ext ?_
      match c with
      | ⟨0, _⟩ => rfl
      | ⟨1, _⟩ => rfl
      | ⟨2, _⟩ => rfl
    rw [hsi]
    rfl
  | ⟨1, h1⟩ =>
    have hs : (rowDims3 N B R D wf).start (ix3 b r k) idx ⟨1, h1⟩ = 0 := by
      unfold GatherDims.start
      rw [dif_neg (show (⟨1, h1⟩ : Fin 2) ∉ (rowDims3 N B R D wf).startIndexMap from
        fun h => absurd (congrArg Fin.val (List.mem_singleton.mp h)) Nat.one_ne_zero)]
    rw [hs]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add]
    rfl

end RowGather3

/-- The row of seed sums from the plainly gathered `[100, 128]` rows is the reference's. -/
theorem seedSum_eq (p : FVec Ideal S100001x128 .f32) (a0 : IVec S1x100 32) :
    broadcastInDim S1x128 ![1] bcast_S128_S1x128_1
        (Host.reduceAdd (Host.gather gather_S100001x128_S100x1_S100x128_1_0_n_n_0_1_1128 p (Stages.colSeeds (Stages.flatSeeds a0)))
          (constant S_ .f32 0x00000000#32) reducesTo_S100x128_S128_d0 h_S_)
      = Cert.ReferenceIdeal.Stages.seedSumOf p a0 := by
  funext j
  obtain ⟨z, k, rfl⟩ : ∃ (z : Fin 1) (k : Fin 128), j = ix2 z k := ⟨j 0, j 1, eq_ix2 j⟩
  obtain rfl : z = ⟨0, Nat.one_pos⟩ := Subsingleton.elim _ _
  rw [broadcastInDim_apply _ bcast_S128_S1x128_1 _ (ix2 ⟨0, Nat.one_pos⟩ k) (ix1 k) (fun a => match a with
    | ⟨0, _⟩ => by show k.val = if (128 : Nat) = 1 then 0 else k.val; rw [if_neg (by decide)])]
  unfold Cert.ReferenceIdeal.Stages.seedSumOf
  simp only [Host.reduceAdd, Ideal.hostReduceAdd_def]
  rw [Ideal.hostReduceAdd_single reducesTo_S100x128_S128_d0 (by decide),
    Ideal.hostReduceAdd_single Cert.ReferenceIdeal.Facts₀.reducesTo_S1x100x128_S1x128_d1 (by decide)]
  refine congrArg₂ (· + ·) rfl (Finset.sum_congr rfl fun (s : Fin 100) _ => ?_)
  have eK : ∀ (h : S100x128.Reduces [0] S128), h.lift (ix1 k) s = ix2 s k := fun h =>
    funext fun a => Fin.ext (by match a with | ⟨0, _⟩ => rfl | ⟨1, _⟩ => rfl)
  have eR : ∀ (h : Cert.ReferenceIdeal.S1x100x128.Reduces [1] Cert.ReferenceIdeal.S1x128),
      h.lift (ix2 ⟨0, Nat.one_pos⟩ k) s = ix3 ⟨0, Nat.one_pos⟩ s k := fun h =>
    funext fun a => Fin.ext (by match a with | ⟨0, _⟩ => rfl | ⟨1, _⟩ => rfl | ⟨2, _⟩ => rfl)
  rw [eK, eR]
  -- the seed index laid out flat is the seed index
  have hflat : Stages.flatSeeds a0 (ix1 s) = a0 (ix2 ⟨0, Nat.one_pos⟩ s) :=
    shapeCast_apply a0 shapeCasts_S1x100_S100 (ix1 s) (ix2 ⟨0, Nat.one_pos⟩ s) (by
      rw [Shape.rowMajor_val_two, Shape.rowMajor_val_one]
      show 0 * 100 + s.val = s.val
      omega)
  -- the wrapped start index is the same word on both sides
  have hw : Stages.colSeeds (Stages.flatSeeds a0) (ix2 s ⟨0, Nat.one_pos⟩)
      = broadcastInDim Cert.ReferenceIdeal.S1x100x1 ![0, 1] Cert.ReferenceIdeal.Gen.bcast_S1x100_S1x100x1_0_1
          (Cert.ReferenceIdeal.Stages.wrapSeeds a0) (ix3 ⟨0, Nat.one_pos⟩ s ⟨0, Nat.one_pos⟩) := by
    unfold Stages.colSeeds
    rw [broadcastInDim_apply _ bcast_S100_S100x1_0 _ (ix2 s ⟨0, Nat.one_pos⟩) (ix1 s) (fun a => match a with
        | ⟨0, _⟩ => by show s.val = if (100 : Nat) = 1 then 0 else s.val; rw [if_neg (by decide)]),
      broadcastInDim_apply _ Cert.ReferenceIdeal.Gen.bcast_S1x100_S1x100x1_0_1 _
        (ix3 ⟨0, Nat.one_pos⟩ s ⟨0, Nat.one_pos⟩) (ix2 ⟨0, Nat.one_pos⟩ s) (fun a => match a with
        | ⟨0, _⟩ => by show 0 = if (1 : Nat) = 1 then 0 else _; rw [if_pos rfl]
        | ⟨1, _⟩ => by show s.val = if (100 : Nat) = 1 then 0 else s.val; rw [if_neg (by decide)])]
    show Scalar.select (IntOp.cmpi .slt (Stages.flatSeeds a0 (ix1 s)) 0#32)
        (IntOp.addi (Stages.flatSeeds a0 (ix1 s)) 100001#32) (Stages.flatSeeds a0 (ix1 s))
      = Scalar.select (IntOp.cmpi .slt (a0 (ix2 ⟨0, Nat.one_pos⟩ s)) 0#32)
        (IntOp.addi (a0 (ix2 ⟨0, Nat.one_pos⟩ s)) 100001#32) (a0 (ix2 ⟨0, Nat.one_pos⟩ s))
    rw [hflat]
  have hK : Host.gather gather_S100001x128_S100x1_S100x128_1_0_n_n_0_1_1128 p (Stages.colSeeds (Stages.flatSeeds a0)) (ix2 s k)
      = p (ix2 ⟨min (Stages.colSeeds (Stages.flatSeeds a0) (ix2 s ⟨0, Nat.one_pos⟩)).toInt.toNat (100001 - 1), by omega⟩ k) := by
    show Host.gather (Cert.LibRowGather.rowDims 100001 100 128 _) _ _ _ = _
    exact Cert.LibRowGather.gather_rows_apply (by decide) _ _ _ s k
  have hR : Host.gather Cert.ReferenceIdeal.gather_S100001x128_S1x100x1_S1x100x128_2_0_n_n_0_2_1128 p
        (broadcastInDim Cert.ReferenceIdeal.S1x100x1 ![0, 1] Cert.ReferenceIdeal.Gen.bcast_S1x100_S1x100x1_0_1
          (Cert.ReferenceIdeal.Stages.wrapSeeds a0)) (ix3 ⟨0, Nat.one_pos⟩ s k)
      = p (ix2 ⟨min (broadcastInDim Cert.ReferenceIdeal.S1x100x1 ![0, 1] Cert.ReferenceIdeal.Gen.bcast_S1x100_S1x100x1_0_1
          (Cert.ReferenceIdeal.Stages.wrapSeeds a0) (ix3 ⟨0, Nat.one_pos⟩ s ⟨0, Nat.one_pos⟩)).toInt.toNat (100001 - 1), by omega⟩ k) := by
    show Host.gather (rowDims3 100001 1 100 128 _) _ _ _ = _
    exact gather_rows3_apply (by decide) _ _ _ ⟨0, Nat.one_pos⟩ s k
  rw [hK, hR]
  refine congrArg p (funext fun a => Fin.ext ?_)
  match a with
  | ⟨0, _⟩ => exact congrArg (fun x : BitVec 32 => min x.toInt.toNat (100001 - 1)) hw
  | ⟨1, _⟩ => rfl

end Cert.KernelIdeal.Seeds

end
-- ==== Proof.Assembly.lean ====
/-
  The kernel program's result is the reference's function of the arguments. Under the precondition every index input is in
  range of the table it indexes, so each of the kernel program's takes is the reference's gather; the first region's
  array is the reference's embedding of the gathered rows; the seeds' row of sums and its projection are the
  reference's; the second region's array, cut to the candidates' length, is the reference's score.
-/
import proofs.«421012_j32959579030378_1_alg».proof.Proof.HostEval
import proofs.«421012_j32959579030378_1_alg».proof.Proof.KernelRun
import proofs.«421012_j32959579030378_1_alg».proof.Proof.Fill
import proofs.«421012_j32959579030378_1_alg».proof.Proof.Region0
import proofs.«421012_j32959579030378_1_alg».proof.Proof.Region1
import proofs.«421012_j32959579030378_1_alg».proof.Proof.Seeds
import proofs.«421012_j32959579030378_1_alg».proof.Proof.Gen.Pre_finite_inputs
import proofs.«421012_j32959579030378_1_alg».proof.Defs

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Fill (InRange)

variable (m : (ℓ : Loc nD τ sig) → Buf (Elt Ideal) ℓ) (ρ : Dev nD → PrngReg)

/-- The seed indices laid out flat are the same words, so they stay in range. -/
theorem flatSeeds_inRange (a0 : IVec S1x100 32) (h : InRange 100001 a0) : InRange 100001 (Stages.flatSeeds a0) :=
  fun i => h _

/-- The reference's embedding of the argument arrays. -/
abbrev embArgs (c : Dev nD) : FVec Ideal S100000x128 .f32 :=
  Cert.ReferenceIdeal.Stages.embOf (F := Ideal)
    (Cert.ReferenceIdeal.Stages.xOf (m ((c : Thread nD τ).loc main_arg5)) (m ((c : Thread nD τ).loc main_arg3))) (Cert.ReferenceIdeal.Stages.nbOf (m ((c : Thread nD τ).loc main_arg5)) (m ((c : Thread nD τ).loc main_arg6)))
    (m ((c : Thread nD τ).loc main_arg4)) (m ((c : Thread nD τ).loc main_arg7)) (m ((c : Thread nD τ).loc main_arg8))

/-- The reference's seeds' projection of the argument arrays. -/
abbrev smArgs (c : Dev nD) : FVec Ideal S1x129 .f32 :=
  Cert.ReferenceIdeal.Stages.smOf (F := Ideal)
    (Cert.ReferenceIdeal.Stages.seedSumOf (Cert.ReferenceIdeal.Stages.padOf (embArgs m c)) (m ((c : Thread nD τ).loc main_arg0))) (m ((c : Thread nD τ).loc main_arg1)) (m ((c : Thread nD τ).loc main_arg9))

section UnderRanges
variable (c : Dev nD)
  (h3 : InRange 100000 (m ((c : Thread nD τ).loc main_arg3))) (h6 : InRange 100000 (m ((c : Thread nD τ).loc main_arg6)))
  (h2 : InRange 100000 (m ((c : Thread nD τ).loc main_arg2))) (h0 : InRange 100001 (m ((c : Thread nD τ).loc main_arg0)))

include h3 h6 in
/-- What the first region leaves: the embedding. -/
theorem emb_eq : (W4 m ρ c (Proc.devRef .tc main_v5) : FVec Ideal S100000x128 .f32) = embArgs m c := by
  rw [W4_v5, Cert.KernelIdeal.Region0.final0_5 (V3 m ρ) c, V3_v0, V3_v4, V3_arg4, V3_arg7, V3_arg8,
    Cert.Fill.takeNodes_eq _ _ h3, Cert.Fill.nbK_eq _ _ h6]

include h3 h6 h0 in
/-- What the second region finds as the seeds' row: the reference's projection. -/
theorem sm_eq : (V9 m ρ c main_v20 : FVec Ideal S1x129 .f32) = smArgs m c := by
  rw [V9_v20, emb_eq m ρ c h3 h6, W4_arg0, W4_arg1, W4_arg9]
  unfold Stages.seedSumK
  rw [Cert.Fill.takeSeeds_eq _ _ (flatSeeds_inRange _ h0), Cert.KernelIdeal.Seeds.seedSum_eq]
  rfl

include h3 h6 h2 in
/-- What the second region finds as the candidate rows: the embedding's rows gathered at the padded candidate list. -/
theorem cand_eq : (V9 m ρ c main_v22 : FVec Ideal S51200x128 .f32)
    = Host.gather gather_S100000x128_S51200x1_S51200x128_1_0_n_n_0_1_1128 (embArgs m c) (Stages.colCand (Stages.padCand (m ((c : Thread nD τ).loc main_arg2)))) := by
  rw [V9_v22, emb_eq m ρ c h3 h6, W4_arg2, Cert.Fill.takeCand_eq _ _ (Cert.Fill.padCand_inRange _ h2)]

include h3 h6 h2 h0 in
/-- THE RESULT: the kernel program's result buffer holds the reference's function of the argument arrays. -/
theorem result_eq : (W11 m ρ c (Proc.devRef .tc main_v24) : FVec Ideal S50000 .f32)
    = Cert.ReferenceIdeal.Stages.refOf (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) := by
  rw [W11_v24, W10_v23,
    Cert.KernelIdeal.Region1.final_slice (V9 m ρ) c (embArgs m c) (m ((c : Thread nD τ).loc main_arg2)) (m ((c : Thread nD τ).loc main_arg11)) (smArgs m c)
      (cand_eq m ρ c h3 h6 h2) ((V9_arg11 m ρ c).trans (W4_arg11 m ρ c)) (sm_eq m ρ c h3 h6 h0)]
  rfl

end UnderRanges

end Cert.KernelIdeal.Val

end
-- ==== Proof.lean ====
/-
  A two-stage graph scorer against its jnp reference, over the extended reals.
  Both programs gather node rows and ten neighbour rows per node from a feature table, form the embedding
  `E = max (x·Ws + mean(nb)·Wn) 0 · mask`, append a zero row, sum a hundred seed rows of it, project the mean by `W1`
  through a logistic to a row `sm`, and score each candidate `j` as `(1 − Σ_d logistic(E[cand j]·W3)_d · sm_d) · 10⁵`.
  The kernel program computes `E` in twenty row blocks and the scores in twenty-five blocks of a candidate list padded with
  zeros, and cuts the padding off at the end; its row lookups replace an out-of-range row by a fill where the
  reference's clamp the index. Under the precondition — float inputs finite, every index input in range of the table
  it indexes — no lookup is out of range, so the two lookups agree, and everything after them is the same exact
  arithmetic: a matrix product is the same sum whichever way it is tiled, and a change of float format is the identity.
  The three frames are the generated frame certificates and the reference's generated run; the idealization rewrote
  nothing, so `preserves` holds trivially.
-/
import proofs.«421012_j32959579030378_1_alg».proof.Defs
import proofs.«421012_j32959579030378_1_alg».proof.Proof.Gen.Kernel
import proofs.«421012_j32959579030378_1_alg».proof.Proof.Gen.Kernel.Skeleton
import proofs.«421012_j32959579030378_1_alg».proof.Proof.Gen.Kernel.Launch
import proofs.«421012_j32959579030378_1_alg».proof.Proof.Gen.Kernel.Points
import proofs.«421012_j32959579030378_1_alg».proof.Proof.Gen.Kernel.Frame
import proofs.«421012_j32959579030378_1_alg».proof.Proof.Gen.KernelIdeal
import proofs.«421012_j32959579030378_1_alg».proof.Proof.Gen.KernelIdeal.Skeleton
import proofs.«421012_j32959579030378_1_alg».proof.Proof.Gen.KernelIdeal.Launch
import proofs.«421012_j32959579030378_1_alg».proof.Proof.Gen.KernelIdeal.Points
import proofs.«421012_j32959579030378_1_alg».proof.Proof.Gen.KernelIdeal.Frame
import proofs.«421012_j32959579030378_1_alg».proof.Proof.Gen.ReferenceIdeal
import proofs.«421012_j32959579030378_1_alg».proof.Proof.Gen.Pre_finite_inputs
import proofs.«421012_j32959579030378_1_alg».proof.Proof.Gen.ReferenceIdeal.Run
import proofs.«421012_j32959579030378_1_alg».proof.Proof.Gen.ReferenceIdeal.Read
import proofs.«421012_j32959579030378_1_alg».proof.Proof.Assembly
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's function of the argument arrays in their result buffers. -/
theorem algebraic : Cert.algebraic_KernelIdeal_ReferenceIdeal := by
  intro m ρ m' ρ' hpre hagree
  have hr := fun c : Dev Cert.KernelIdeal.nD => Cert.Fill.ranges_of_pre
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11)) (hpre c)
  refine ⟨fun c => Cert.ReferenceIdeal.Stages.refOf (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Val.result_eq m ρ c (hr c).1 (hr c).2.1 (hr c).2.2.1 (hr c).2.2.2), (h c).2⟩)
      (Cert.KernelIdeal.GenP.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Stages.res_eq, e0, e1, e2, e3, e4, e5, e6, e7, e8, e9, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
